-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x8192 : Shape := ⟨2, ![32, 8192]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x8192 : S_.BroadcastsInDim S32x8192 (![] : Fin 0 → Fin S32x8192.rank)
  reducesTo_S32x8192_S_d0_1 : S32x8192.ReducesTo [0, 1] S_

variable [Facts]

def fn {F : FTy → Type} [FloatOps F] (main_arg0 : FVec F S8192x32 .f32) (main_arg1 : FVec F S8192x8192 .f32) (main_arg2 : FVec F S32x8192 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S32x8192 .f32 := Host.absf main_arg2
  let main_cst_2 : FVec F S_ .f32 := constant S_ .f32 0x7F800000#32
  let main_v10 : FVec F S32x8192 .f32 := broadcastInDim S32x8192 ![] bcast_S_S32x8192 main_cst_2
  let main_v11 : IVec S32x8192 1 := cmpf .olt main_v9 main_v10
  let main_c_3 : IVec S_ 1 := constantI S_ 1 1#1
  let main_v12 : IVec S_ 1 := (fun x v => Host.reduce IntOp.andi x v reducesTo_S32x8192_S_d0_1 h_S_) main_v11 main_c_3
  let main_v13 : IVec S_ 1 := andi main_v8 main_v12
  main_v13
-- ==== Kernel.lean ====
abbrev S8192x32 : Shape := ⟨2, ![8192, 32]⟩
abbrev S8192x8192 : Shape := ⟨2, ![8192, 8192]⟩
abbrev S32x8192 : Shape := ⟨2, ![32, 8192]⟩
abbrev S2048x1024 : Shape := ⟨2, ![2048, 1024]⟩
abbrev S2048x32 : Shape := ⟨2, ![2048, 32]⟩
abbrev S1024x32 : Shape := ⟨2, ![1024, 32]⟩
abbrev S1024x2048 : Shape := ⟨2, ![1024, 2048]⟩

abbrev nBuf : Space → Nat
  | .hbm => 6
  | .vmem => 16
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S32x8192, .f32⟩
  | .hbm, ⟨3, _⟩ => ⟨S8192x32, .f32⟩
  | .hbm, ⟨4, _⟩ => ⟨S8192x32, .f32⟩
  | .hbm, ⟨5, _⟩ => ⟨S8192x32, .f32⟩
  | .local _ .vmem, ⟨0, _⟩ => ⟨S2048x1024, .f32⟩
  | .local _ .vmem, ⟨1, _⟩ => ⟨S2048x1024, .f32⟩
  | .local _ .vmem, ⟨2, _⟩ => ⟨S2048x32, .f32⟩
  | .local _ .vmem, ⟨3, _⟩ => ⟨S2048x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x2048, .f32⟩
  | .local _ .vmem, ⟨10, _⟩ => ⟨S1024x2048, .f32⟩
  | .local _ .vmem, ⟨11, _⟩ => ⟨S2048x32, .f32⟩
  | .local _ .vmem, ⟨12, _⟩ => ⟨S2048x32, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S32x8192_S8192x32_1_0 : S32x8192.Transposes [1, 0] S8192x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  inb_S1024x2048_S1024x2048_0_0 : ∀ a, (![0, 0] : Fin 2 → Nat) a + S1024x2048.size a ≤ S1024x2048.size a
  h_S1024x2048 : 0 < S1024x2048.numel
  shapeCasts_S2048x32_S2048x32 : S2048x32.ShapeCasts S2048x32
  dot_S2048x1024_S2048x32_S1024x32_0_0_1_1_n_n_wf : DotDims.WF S2048x1024 S2048x32 S1024x32 [0] [0] [1] [1] [] []
  dot_S1024x2048_S2048x32_S1024x32_1_0_0_1_n_n_wf : DotDims.WF S1024x2048 S2048x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S8192x32.size a
  hwx0_1 : ∀ i : grid0.Coords, EltTy.bits .f32 = 32 ∨ (Rect.block (s := S8192x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S8192x32.size a
  hwx0_3 : ∀ i : grid0.Coords, EltTy.bits .f32 = 32 ∨ (Rect.block (s := S8192x32) S1024x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S8192x32.size a
  hwx1_1 : ∀ i : grid1.Coords, EltTy.bits .f32 = 32 ∨ (Rect.block (s := S8192x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)

variable [Facts₀]

def dot_S2048x1024_S2048x32_S1024x32_0_0_1_1_n_n : DotDims S2048x1024 S2048x32 S1024x32 where
  lhsContracting := [0]
  rhsContracting := [0]
  lhsNonContracting := [1]
  rhsNonContracting := [1]
  lhsBatch := []
  rhsBatch := []
  wf := dot_S2048x1024_S2048x32_S1024x32_0_0_1_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S32x8192 : Shape := ⟨2, ![32, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S32x8192, .f32⟩
  | .hbm, ⟨3, _⟩ => ⟨S8192x8192, .f32⟩
  | .hbm, ⟨4, _⟩ => ⟨S8192x32, .f32⟩
  | .hbm, ⟨5, _⟩ => ⟨S8192x32, .f32⟩
  | .hbm, ⟨6, _⟩ => ⟨S8192x32, .f32⟩
  | .hbm, ⟨7, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S8192x8192_S8192x8192_1_0 : S8192x8192.Transposes [1, 0] S8192x8192
  transposes_S32x8192_S8192x32_1_0 : S32x8192.Transposes [1, 0] S8192x32
  dot_S8192x8192_S8192x32_S8192x32_1_0_0_1_n_n_wf : DotDims.WF S8192x8192 S8192x32 S8192x32 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.BK0.lean ====
/-
  Region 0 (the forward transform): for a row block `i` of 1024 spectral rows the scratch accumulates, over the four
  blocks `k` of 2048 graph nodes, the products `U[kblk, iblk]ᵀ · x[kblk, :]`; at the last `k` the sum is scaled
  elementwise by the transposed filter block and stored into the output window. Here: the blocks the body finds,
  the scratch after each point (a fold over the points of one row block, restarted where `k = 0`), the proof data
  and the invariant that carries the scratch from point to point.
-/
import proofs.«173338_j37280316129403_1_alg».proof.Proof.Gen.Kernel.Launch
import proofs.«173338_j37280316129403_1_alg».proof.Proof.Gen.Kernel.Skeleton
import proofs.«173338_j37280316129403_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The scratch after each point -/

/-- The accumulator after the body at position `n`: where `k = 0` (`n ≡ 0 mod 4`) the partial product over zeros,
    elsewhere over what the point before left. -/
def acc0 (c : Dev nD) : (n : ℕ) → n < cfg0.N → Vec F S1024x32 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_next (c : Dev nD) (t : Fin cfg0.N) (h : ¬t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The body's branch conditions, decided over the grid -/

/-- The first conditional (`k = 0`: reset the accumulator). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second conditional (`k = 3`: scale and store the output block). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The body on whole staging memrefs, case by case -/

set_option maxHeartbeats 1000000 in
/-- A middle point (`0 < k < 3`): the accumulator gains the block product, the output window is left as found. -/
theorem fwd_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole)
    (hc0 : ¬cond0_0 i) (hc1 : ¬cond0_1 i)
    (x0 : Vec F S2048x1024 .f32) (x1 : Vec F S2048x32 .f32) (x2 : Vec F S1024x32 .f32) (d3 : Vec F S1024x32 .f32) (s : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k0_pay2 x0 x1 s)) -∗ K ⟨⟩))
      ⊢ wp frame (wpE (defs₀ (F := F)) Variants.none c none) E (cc0__fwd_kernel i arg2 harg2 arg3 harg3 arg4 harg4 arg5 harg5 arg6 harg6) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  have hz : (![0, 0] : Fin S1024x32.rank → Nat) = fun _ => 0 := by funext a; fin_cases a <;> rfl
  have hzU : (![0, 0] : Fin S2048x1024.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, View.mem_set_unit_zero hz Facts₀.inb_S1024x32_S1024x32_0_0 y⟩),
    View.canon_unit_zero hz]
  simp only [View.readAt_eq_ld, harg2.read_unread, harg3.read_unread, harg6.read_unread,
    View.ld_unit_zero (S := S1024x32) hz, View.ld_unit_zero (S := S2048x1024) hzU, View.ld_unit_zero (S := S2048x32) hzX]

set_option maxHeartbeats 1000000 in
/-- A first point (`k = 0`): the accumulator is reset to zeros and gains the block product; the output window is left as found. -/
theorem fwd_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole)
    (hc0 : cond0_0 i) (hc1 : ¬cond0_1 i)
    (x0 : Vec F S2048x1024 .f32) (x1 : Vec F S2048x32 .f32) (x2 : Vec F S1024x32 .f32) (d3 : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ (∃ s, owns (c : Thread nD τ) arg6 fullShare s)
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k0_pay2 x0 x1 (k0_pay1 (F := F)))) -∗ K ⟨⟩))
      ⊢ wp frame (wpE (defs₀ (F := F)) Variants.none c none) E (cc0__fwd_kernel i arg2 harg2 arg3 harg3 arg4 harg4 arg5 harg5 arg6 harg6) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%s, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  have hz : (![0, 0] : Fin S1024x32.rank → Nat) = fun _ => 0 := by funext a; fin_cases a <;> rfl
  have hzU : (![0, 0] : Fin S2048x1024.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [View.read_writes_eq_canon _ _ _ (fun y => ⟨_, List.mem_cons_self, View.mem_set_unit_zero hz Facts₀.inb_S1024x32_S1024x32_0_0 y⟩),
    View.canon_cons_unit_zero hz]
  simp only [View.readAt_eq_ld, harg2.read_unread, harg3.read_unread,
    View.ld_unit_zero (S := S1024x32) hz, View.ld_unit_zero (S := S2048x1024) hzU, View.ld_unit_zero (S := S2048x32) hzX,
    View.readCov_unit_zero (S := S1024x32) _ hz]

set_option maxHeartbeats 1000000 in
/-- A last point (`k = 3`): the accumulator gains the block product and, scaled by the filter block, is stored into the output window. -/
theorem fwd_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole)
    (hc0 : ¬cond0_0 i) (hc1 : cond0_1 i)
    (x0 : Vec F S2048x1024 .f32) (x1 : Vec F S2048x32 .f32) (x2 : Vec F S1024x32 .f32) (s : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 s) x2) ∗ owns (c : Thread nD τ) arg6 fullShare (k0_pay2 x0 x1 s)) -∗ K ⟨⟩))
      ⊢ wp frame (wpE (defs₀ (F := F)) Variants.none c none) E (cc0__fwd_kernel i arg2 harg2 arg3 harg3 arg4 harg4 arg5 harg5 arg6 harg6) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  have hz : (![0, 0] : Fin S1024x32.rank → Nat) = fun _ => 0 := by funext a; fin_cases a <;> rfl
  have hzU : (![0, 0] : Fin S2048x1024.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (fun y => ⟨_, List.mem_singleton_self _, View.mem_set_unit_zero hz Facts₀.inb_S1024x32_S1024x32_0_0 y⟩),
      View.canon_unit_zero hz]
    simp only [View.readAt_eq_ld, harg2.read_unread, harg3.read_unread, harg4.read_unread, harg6.read_unread,
      View.ld_unit_zero (S := S1024x32) hz, View.ld_unit_zero (S := S2048x1024) hzU, View.ld_unit_zero (S := S2048x32) hzX,
      View.readCov_unit_zero (S := S1024x32) _ hz]
  iexists _; isplitr
  swap; · iexact HS
  ipureintro
  sl_unfold_words
  rw [View.read_writes_eq_canon _ _ _ (fun y => ⟨_, List.mem_singleton_self _, View.mem_set_unit_zero hz Facts₀.inb_S1024x32_S1024x32_0_0 y⟩),
    View.canon_unit_zero hz]
  simp only [View.readAt_eq_ld, harg2.read_unread, harg3.read_unread, harg6.read_unread,
    View.ld_unit_zero (S := S1024x32) hz, View.ld_unit_zero (S := S2048x1024) hzU, View.ld_unit_zero (S := S2048x32) hzX]

/-! ## The invariant that carries the accumulator -/

/-- The accumulator's scratch operand. -/
abbrev scM0 : Memref sig .tc .vmem S1024x32 .f32 := Memref.whole cc0_scratch0

/-- The core's other scoped buffers no window of this call stages (the second call's), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator singled out. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- Before position `n`: at the first point anything (the class's invariant); afterwards the accumulator at what the
    point before left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The proof data -/

/-- The arrays as the region finds them; after the body each input's buffer at its block, the output's at the scaled
    accumulator (consulted only where `k = 3`: elsewhere the window is idle and not written back); the invariant
    `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position of the point in its row block
    (`t mod 4`) says which case runs; the invariant hands over the accumulator at what the point before left (at
    anything where `k = 0`, which resets it) and takes it back at this point's contents; where `k ≠ 3` the output
    window is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 32 := lt_of_lt_of_eq t.isLt (show cfg0.N = 32 from N_0)
  by_cases h1 : t.val % 4 = 3
  · have h0 : ¬t.val % 4 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    rw [acc0_next V c t h0, PhiS0_castSucc V c t, PhiS0_pos V c _ _ hz]
    iintro ⟨⟨⟨HS, Hr⟩, Hg⟩, Ho, ⟨%d0, H0⟩, ⟨%d1, H1⟩, ⟨%d2, H2⟩, ⟨%d3, H3⟩⟩
    iapply (fwd_C c (grid0.coords t) _ _ _ _ _ _ _ _ _ _ (fun h => h0 ((hcond0_0 t).mp h)) ((hcond0_1 t).mpr h1)
      (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 4 = 0
    · rw [acc0_first V c t h0, PhiS0_castSucc V c t]
      by_cases hz : t.val = 0
      · rw [PhiS0_zero V c _ _ hz, PhiA0_eq]
        iintro ⟨⟨⟨HS, Hr⟩, Hg⟩, Ho, ⟨%d0, H0⟩, ⟨%d1, H1⟩, ⟨%d2, H2⟩, ⟨%d3, H3⟩⟩
        iapply (fwd_A c (grid0.coords t) _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        iexists _; iexact H3
      · rw [PhiS0_pos V c _ _ hz]
        iintro ⟨⟨⟨HS, Hr⟩, Hg⟩, Ho, ⟨%d0, H0⟩, ⟨%d1, H1⟩, ⟨%d2, H2⟩, ⟨%d3, H3⟩⟩
        iapply (fwd_A c (grid0.coords t) _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc0_next V c t h0, PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (fwd_B c (grid0.coords t) _ _ _ _ _ _ _ _ _ _ (fun h => h0 ((hcond0_0 t).mp h)) (fun h => h1 ((hcond0_1 t).mp h))
        (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hr⟩, Hg⟩
  isplitl [HS Hr]
  · isplitl [HS]; · iexists _; iexact HS
    iexact Hr
  iexact Hg

end Cert.Kernel.Hand

end
-- ==== Proof.BK1.lean ====
/-
  Region 1 (the inverse transform): for a row block `i` of 1024 graph nodes the scratch accumulates, over the four
  blocks `k` of 2048 spectral rows, the products `U[iblk, kblk] · scaled[kblk, :]`; at the last `k` the sum is stored
  into the output window. Here: the blocks the body finds, the scratch after each point (a fold over the points of
  one row block, restarted where `k = 0`), the proof data and the invariant that carries the scratch.
-/
import proofs.«173338_j37280316129403_1_alg».proof.Proof.Gen.Kernel.Launch
import proofs.«173338_j37280316129403_1_alg».proof.Proof.Gen.Kernel.Skeleton
import proofs.«173338_j37280316129403_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch after each point -/

/-- The accumulator after the body at position `n`: where `k = 0` (`n ≡ 0 mod 4`) the partial product over zeros,
    elsewhere over what the point before left. -/
def acc1 (c : Dev nD) : (n : ℕ) → n < cfg1.N → Vec F S1024x32 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_next (c : Dev nD) (t : Fin cfg1.N) (h : ¬t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact if_neg h

/-! ## The body's branch conditions, decided over the grid -/

/-- The first conditional (`k = 0`: reset the accumulator). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional (`k = 3`: store the output block). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body on whole staging memrefs, case by case -/

set_option maxHeartbeats 1000000 in
/-- A middle point (`0 < k < 3`): the accumulator gains the block product, the output window is left as found. -/
theorem inv_B (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hc0 : ¬cond1_0 i) (hc1 : ¬cond1_1 i)
    (x0 : Vec F S1024x2048 .f32) (x1 : Vec F S2048x32 .f32) (d2 : Vec F S1024x32 .f32) (s : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare d2 ∗ owns (c : Thread nD τ) arg5 fullShare s
        ∗ (iprop(owns (c : Thread nD τ) arg2 fullShare x0 ∗ owns (c : Thread nD τ) arg3 fullShare x1 ∗ owns (c : Thread nD τ) arg4 fullShare d2 ∗ owns (c : Thread nD τ) arg5 fullShare (k1_pay2 x0 x1 s)) -∗ K ⟨⟩))
      ⊢ wp frame (wpE (defs₀ (F := F)) Variants.none c none) E (cc1__inv_kernel i arg2 harg2 arg3 harg3 arg4 harg4 arg5 harg5) K := by
  simp only [cc1__inv_kernel_eq_skeleton]; unfold cc1__inv_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  have hz : (![0, 0] : Fin S1024x32.rank → Nat) = fun _ => 0 := by funext a; fin_cases a <;> rfl
  have hzU : (![0, 0] : Fin S1024x2048.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_singleton_self _, View.mem_set_unit_zero hz Facts₀.inb_S1024x32_S1024x32_0_0 y⟩),
    View.canon_unit_zero hz]
  simp only [View.readAt_eq_ld, harg2.read_unread, harg3.read_unread, harg5.read_unread,
    View.ld_unit_zero (S := S1024x32) hz, View.ld_unit_zero (S := S1024x2048) hzU, View.ld_unit_zero (S := S2048x32) hzX]

set_option maxHeartbeats 1000000 in
/-- A first point (`k = 0`): the accumulator is reset to zeros and gains the block product; the output window is left as found. -/
theorem inv_A (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hc0 : cond1_0 i) (hc1 : ¬cond1_1 i)
    (x0 : Vec F S1024x2048 .f32) (x1 : Vec F S2048x32 .f32) (d2 : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare d2 ∗ (∃ s, owns (c : Thread nD τ) arg5 fullShare s)
        ∗ (iprop(owns (c : Thread nD τ) arg2 fullShare x0 ∗ owns (c : Thread nD τ) arg3 fullShare x1 ∗ owns (c : Thread nD τ) arg4 fullShare d2 ∗ owns (c : Thread nD τ) arg5 fullShare (k1_pay2 x0 x1 (k1_pay1 (F := F)))) -∗ K ⟨⟩))
      ⊢ wp frame (wpE (defs₀ (F := F)) Variants.none c none) E (cc1__inv_kernel i arg2 harg2 arg3 harg3 arg4 harg4 arg5 harg5) K := by
  simp only [cc1__inv_kernel_eq_skeleton]; unfold cc1__inv_kernel_skel
  unfold owns
  iintro ⟨⟨%f0, %hf0, H0⟩, ⟨%f1, %hf1, H1⟩, ⟨%f2, %hf2, H2⟩, ⟨%s, %fs, -, HS⟩, Hk⟩
  obtain rfl := harg2.eq_unread hf0; obtain rfl := harg3.eq_unread hf1; obtain rfl := harg4.eq_unread hf2
  sl_exec (disch := first | exact hc0 | exact hc1)
  sl_step
  iapply Hk
  have hz : (![0, 0] : Fin S1024x32.rank → Nat) = fun _ => 0 := by funext a; fin_cases a <;> rfl
  have hzU : (![0, 0] : Fin S1024x2048.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero hz Facts₀.inb_S1024x32_S1024x32_0_0 y⟩),
    View.canon_cons_unit_zero hz]
  simp only [View.readAt_eq_ld, harg2.read_unread, harg3.read_unread,
    View.ld_unit_zero (S := S1024x32) hz, View.ld_unit_zero (S := S1024x2048) hzU, View.ld_unit_zero (S := S2048x32) hzX,
    View.readCov_unit_zero (S := S1024x32) _ hz]

set_option maxHeartbeats 1000000 in
/-- A last point (`k = 3`): the accumulator gains the block product and is stored into the output window. -/
theorem inv_C (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hc0 : ¬cond1_0 i) (hc1 : cond1_1 i)
    (x0 : Vec F S1024x2048 .f32) (x1 : Vec F S2048x32 .f32) (s : Vec F S1024x32 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k1_pay2 x0 x1 s) ∗ owns (c : Thread nD τ) arg5 fullShare (k1_pay2 x0 x1 s)) -∗ K ⟨⟩))
      ⊢ wp frame (wpE (defs₀ (F := F)) Variants.none c none) E (cc1__inv_kernel i arg2 harg2 arg3 harg3 arg4 harg4 arg5 harg5) K := by
  simp only [cc1__inv_kernel_eq_skeleton]; unfold cc1__inv_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  have hz : (![0, 0] : Fin S1024x32.rank → Nat) = fun _ => 0 := by funext a; fin_cases a <;> rfl
  have hzU : (![0, 0] : Fin S1024x2048.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_singleton_self _, View.mem_set_unit_zero hz Facts₀.inb_S1024x32_S1024x32_0_0 y⟩),
      View.canon_unit_zero hz]
    simp only [View.readAt_eq_ld, harg2.read_unread, harg3.read_unread, harg5.read_unread,
      View.ld_unit_zero (S := S1024x32) hz, View.ld_unit_zero (S := S1024x2048) hzU, View.ld_unit_zero (S := S2048x32) hzX,
      View.readCov_unit_zero (S := S1024x32) _ hz]
  iexists _; isplitr
  swap; · iexact HS
  ipureintro
  sl_unfold_words
  rw [View.read_writes_eq_canon _ _ _ (fun y => ⟨_, List.mem_singleton_self _, View.mem_set_unit_zero hz Facts₀.inb_S1024x32_S1024x32_0_0 y⟩),
    View.canon_unit_zero hz]
  simp only [View.readAt_eq_ld, harg2.read_unread, harg3.read_unread, harg5.read_unread,
    View.ld_unit_zero (S := S1024x32) hz, View.ld_unit_zero (S := S1024x2048) hzU, View.ld_unit_zero (S := S2048x32) hzX]

/-! ## The invariant that carries the accumulator -/

/-- The accumulator's scratch operand. -/
abbrev scM1 : Memref sig .tc .vmem S1024x32 .f32 := Memref.whole cc1_scratch0

/-- The class invariant with the accumulator (the last of the core's scoped buffers no window of this call stages) singled out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- Before position `n`: at the first point anything (the class's invariant); afterwards the accumulator at what the
    point before left, the other scoped buffers and the generator register at anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c (n - 1) (by omega))) ∗ (∃ r, prngReg c r)) := by
  cases n with
  | zero => exact absurd rfl hz
  | succ n => rfl

/-! ## The proof data -/

/-- The arrays as the region finds them; after the body each input's buffer at its block, the output's at the
    accumulator (consulted only where `k = 3`: elsewhere the window is idle and not written back); the invariant
    `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position of the point in its row block
    (`t mod 4`) says which case runs; the invariant hands over the accumulator at what the point before left (at
    anything where `k = 0`, which resets it) and takes it back at this point's contents; where `k ≠ 3` the output
    window is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    rw [acc1_next V c t h0, PhiS1_castSucc V c t, PhiS1_pos V c _ _ hz]
    · iintro ⟨⟨⟨R0, R1, R2, R3, R4, R5, R6, R7, R8, HS⟩, Hg⟩, Ho, ⟨%d0, H0⟩, ⟨%d1, H1⟩, ⟨%d2, H2⟩⟩
      iapply (inv_C c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [R0 R1 R2 R3 R4 R5 R6 R7 R8 HS Hg]
      · isplitl [R0 R1 R2 R3 R4 R5 R6 R7 R8 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [acc1_first V c t h0, PhiS1_castSucc V c t]
      by_cases hz : t.val = 0
      · rw [PhiS1_zero V c _ _ hz, PhiA1_eq]
        iintro ⟨⟨⟨R0, R1, R2, R3, R4, R5, R6, R7, R8, HS⟩, Hg⟩, Ho, ⟨%d0, H0⟩, ⟨%d1, H1⟩, ⟨%d2, H2⟩⟩
        iapply (inv_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexact HS
        iintro ⟨H0, H1, H2, HS⟩
        isplitl [R0 R1 R2 R3 R4 R5 R6 R7 R8 HS Hg]
        · isplitl [R0 R1 R2 R3 R4 R5 R6 R7 R8 HS]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact HS
          iexact Hg
        isplitl [Ho]; · iexact Ho
        isplitl [H0]; · iexact H0
        isplitl [H1]; · iexact H1
        iexists _; iexact H2
      · rw [PhiS1_pos V c _ _ hz]
        iintro ⟨⟨⟨R0, R1, R2, R3, R4, R5, R6, R7, R8, HS⟩, Hg⟩, Ho, ⟨%d0, H0⟩, ⟨%d1, H1⟩, ⟨%d2, H2⟩⟩
        iapply (inv_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexists _; iexact HS
        iintro ⟨H0, H1, H2, HS⟩
        isplitl [R0 R1 R2 R3 R4 R5 R6 R7 R8 HS Hg]
        · isplitl [R0 R1 R2 R3 R4 R5 R6 R7 R8 HS]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact HS
          iexact Hg
        isplitl [Ho]; · iexact Ho
        isplitl [H0]; · iexact H0
        isplitl [H1]; · iexact H1
        iexists _; iexact H2
    · have hz : t.val ≠ 0 := fun e => h0 (by rw [e])
      rw [acc1_next V c t h0, PhiS1_castSucc V c t, PhiS1_pos V c _ _ hz]
      iintro ⟨⟨⟨R0, R1, R2, R3, R4, R5, R6, R7, R8, HS⟩, Hg⟩, Ho, ⟨%d0, H0⟩, ⟨%d1, H1⟩, ⟨%d2, H2⟩⟩
      iapply (inv_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [R0 R1 R2 R3 R4 R5 R6 R7 R8 HS Hg]
      · isplitl [R0 R1 R2 R3 R4 R5 R6 R7 R8 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨R0, R1, R2, R3, R4, R5, R6, R7, R8, HS⟩, Hg⟩
  isplitl [R0 R1 R2 R3 R4 R5 R6 R7 R8 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

end Cert.Kernel.Hand

end
-- ==== Proof.BRun.lean ====
/-
  The run of the whole program: the transposition of the filter table on the host, then the two kernel regions, each
  entered from what the item before left in the core's unscoped buffers. The contents at each boundary are a fold from
  the launch memory; the last one holds the second region's output at what its write-backs leave and every argument
  array as launched.
-/
import proofs.«173338_j37280316129403_1_alg».proof.Proof.BK0
import proofs.«173338_j37280316129403_1_alg».proof.Proof.BK1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host transposition (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry): its arrays at what its write-backs leave, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the regions read, and what the run leaves -/

/-- The node features reach the first region as launched (the host line writes another buffer). -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl

/-- The eigenvector matrix reaches the second region as launched: the first region only reads it. -/
theorem W2_main_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_main_arg1 m ρ c)
theorem W2_main_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_main_arg0 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
/-- The scaled spectrum the second region reads is what the first region's write-backs left. -/
theorem W2_main_v1 (c : Dev nD) : W2 m ρ c (Proc.devRef .tc main_v1) = (dat0 (V1 m ρ) c).arrAt 3 cfg0.N :=
  W2_arr m ρ c 3

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
/-- The result is what the second region's write-backs left. -/
theorem W3_main_v2 (c : Dev nD) : W3 m ρ c (Proc.devRef .tc main_v2) = (dat1 (V2 m ρ) c).arrAt 2 cfg1.N :=
  W3_arr m ρ c 2

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from the buffers at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the buffers at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, with
    the result buffer at what the second region's write-backs leave and every argument array as launched. -/
theorem run_main : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Kernel.Hand

end
-- ==== Proof.K0.lean ====
/-
  Region 0 (the forward transform): for a row block `i` of 1024 spectral rows the scratch accumulates, over the four
  blocks `k` of 2048 graph nodes, the products `U[kblk, iblk]ᵀ · x[kblk, :]`; at the last `k` the sum is scaled
  elementwise by the transposed filter block and stored into the output window. Here: the blocks the body finds,
  the scratch after each point (a fold over the points of one row block, restarted where `k = 0`), the proof data
  and the invariant that carries the scratch from point to point.
-/
import proofs.«173338_j37280316129403_1_alg».proof.Proof.Gen.KernelIdeal.Launch
import proofs.«173338_j37280316129403_1_alg».proof.Proof.Gen.KernelIdeal.Skeleton
import proofs.«173338_j37280316129403_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The scratch after each point -/

/-- The accumulator after the body at position `n`: where `k = 0` (`n ≡ 0 mod 4`) the partial product over zeros,
    elsewhere over what the point before left. -/
def acc0 (c : Dev nD) : (n : ℕ) → n < cfg0.N → Vec F S1024x32 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_next (c : Dev nD) (t : Fin cfg0.N) (h : ¬t.val % 4 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-! ## The body's branch conditions, decided over the grid -/

/-- The first conditional (`k = 0`: reset the accumulator). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second conditional (`k = 3`: scale and store the output block). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The body on whole staging memrefs, case by case -/

set_option maxHeartbeats 1000000 in
/-- A middle point (`0 < k < 3`): the accumulator gains the block product, the output window is left as found. -/
theorem fwd_B (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole)
    (hc0 : ¬cond0_0 i) (hc1 : ¬cond0_1 i)
    (x0 : Vec F S2048x1024 .f32) (x1 : Vec F S2048x32 .f32) (x2 : Vec F S1024x32 .f32) (d3 : Vec F S1024x32 .f32) (s : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k0_pay2 x0 x1 s)) -∗ K ⟨⟩))
      ⊢ wp frame (wpE (defs₀ (F := F)) Variants.none c none) E (cc0__fwd_kernel i arg2 harg2 arg3 harg3 arg4 harg4 arg5 harg5 arg6 harg6) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  have hz : (![0, 0] : Fin S1024x32.rank → Nat) = fun _ => 0 := by funext a; fin_cases a <;> rfl
  have hzU : (![0, 0] : Fin S2048x1024.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (fun y => ⟨_, List.mem_singleton_self _, View.mem_set_unit_zero hz Facts₀.inb_S1024x32_S1024x32_0_0 y⟩),
    View.canon_unit_zero hz]
  simp only [View.readAt_eq_ld, harg2.read_unread, harg3.read_unread, harg6.read_unread,
    View.ld_unit_zero (S := S1024x32) hz, View.ld_unit_zero (S := S2048x1024) hzU, View.ld_unit_zero (S := S2048x32) hzX]

set_option maxHeartbeats 1000000 in
/-- A first point (`k = 0`): the accumulator is reset to zeros and gains the block product; the output window is left as found. -/
theorem fwd_A (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole)
    (hc0 : cond0_0 i) (hc1 : ¬cond0_1 i)
    (x0 : Vec F S2048x1024 .f32) (x1 : Vec F S2048x32 .f32) (x2 : Vec F S1024x32 .f32) (d3 : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ (∃ s, owns (c : Thread nD τ) arg6 fullShare s)
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k0_pay2 x0 x1 (k0_pay1 (F := F)))) -∗ K ⟨⟩))
      ⊢ wp frame (wpE (defs₀ (F := F)) Variants.none c none) E (cc0__fwd_kernel i arg2 harg2 arg3 harg3 arg4 harg4 arg5 harg5 arg6 harg6) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%s, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  have hz : (![0, 0] : Fin S1024x32.rank → Nat) = fun _ => 0 := by funext a; fin_cases a <;> rfl
  have hzU : (![0, 0] : Fin S2048x1024.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [View.read_writes_eq_canon _ _ _ (fun y => ⟨_, List.mem_cons_self, View.mem_set_unit_zero hz Facts₀.inb_S1024x32_S1024x32_0_0 y⟩),
    View.canon_cons_unit_zero hz]
  simp only [View.readAt_eq_ld, harg2.read_unread, harg3.read_unread,
    View.ld_unit_zero (S := S1024x32) hz, View.ld_unit_zero (S := S2048x1024) hzU, View.ld_unit_zero (S := S2048x32) hzX,
    View.readCov_unit_zero (S := S1024x32) _ hz]

set_option maxHeartbeats 1000000 in
/-- A last point (`k = 3`): the accumulator gains the block product and, scaled by the filter block, is stored into the output window. -/
theorem fwd_C (c : Dev nD) (i : grid0.Coords) (arg2 : Memref sig .tc .vmem S2048x1024 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole)
    (hc0 : ¬cond0_0 i) (hc1 : cond0_1 i)
    (x0 : Vec F S2048x1024 .f32) (x1 : Vec F S2048x32 .f32) (x2 : Vec F S1024x32 .f32) (s : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 s) x2) ∗ owns (c : Thread nD τ) arg6 fullShare (k0_pay2 x0 x1 s)) -∗ K ⟨⟩))
      ⊢ wp frame (wpE (defs₀ (F := F)) Variants.none c none) E (cc0__fwd_kernel i arg2 harg2 arg3 harg3 arg4 harg4 arg5 harg5 arg6 harg6) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  have hz : (![0, 0] : Fin S1024x32.rank → Nat) = fun _ => 0 := by funext a; fin_cases a <;> rfl
  have hzU : (![0, 0] : Fin S2048x1024.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (fun y => ⟨_, List.mem_singleton_self _, View.mem_set_unit_zero hz Facts₀.inb_S1024x32_S1024x32_0_0 y⟩),
      View.canon_unit_zero hz]
    simp only [View.readAt_eq_ld, harg2.read_unread, harg3.read_unread, harg4.read_unread, harg6.read_unread,
      View.ld_unit_zero (S := S1024x32) hz, View.ld_unit_zero (S := S2048x1024) hzU, View.ld_unit_zero (S := S2048x32) hzX,
      View.readCov_unit_zero (S := S1024x32) _ hz]
  iexists _; isplitr
  swap; · iexact HS
  ipureintro
  sl_unfold_words
  rw [View.read_writes_eq_canon _ _ _ (fun y => ⟨_, List.mem_singleton_self _, View.mem_set_unit_zero hz Facts₀.inb_S1024x32_S1024x32_0_0 y⟩),
    View.canon_unit_zero hz]
  simp only [View.readAt_eq_ld, harg2.read_unread, harg3.read_unread, harg6.read_unread,
    View.ld_unit_zero (S := S1024x32) hz, View.ld_unit_zero (S := S2048x1024) hzU, View.ld_unit_zero (S := S2048x32) hzX]

/-! ## The invariant that carries the accumulator -/

/-- The accumulator's scratch operand. -/
abbrev scM0 : Memref sig .tc .vmem S1024x32 .f32 := Memref.whole cc0_scratch0

/-- The core's other scoped buffers no window of this call stages (the second call's), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator singled out. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- Before position `n`: at the first point anything (the class's invariant); afterwards the accumulator at what the
    point before left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The proof data -/

/-- The arrays as the region finds them; after the body each input's buffer at its block, the output's at the scaled
    accumulator (consulted only where `k = 3`: elsewhere the window is idle and not written back); the invariant
    `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the position of the point in its row block
    (`t mod 4`) says which case runs; the invariant hands over the accumulator at what the point before left (at
    anything where `k = 0`, which resets it) and takes it back at this point's contents; where `k ≠ 3` the output
    window is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  have hN : t.val < 32 := lt_of_lt_of_eq t.isLt (show cfg0.N = 32 from N_0)
  by_cases h1 : t.val % 4 = 3
  · have h0 : ¬t.val % 4 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    rw [acc0_next V c t h0, PhiS0_castSucc V c t, PhiS0_pos V c _ _ hz]
    iintro ⟨⟨⟨HS, Hr⟩, Hg⟩, Ho, ⟨%d0, H0⟩, ⟨%d1, H1⟩, ⟨%d2, H2⟩, ⟨%d3, H3⟩⟩
    iapply (fwd_C c (grid0.coords t) _ _ _ _ _ _ _ _ _ _ (fun h => h0 ((hcond0_0 t).mp h)) ((hcond0_1 t).mpr h1)
      (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 4 = 0
    · rw [acc0_first V c t h0, PhiS0_castSucc V c t]
      by_cases hz : t.val = 0
      · rw [PhiS0_zero V c _ _ hz, PhiA0_eq]
        iintro ⟨⟨⟨HS, Hr⟩, Hg⟩, Ho, ⟨%d0, H0⟩, ⟨%d1, H1⟩, ⟨%d2, H2⟩, ⟨%d3, H3⟩⟩
        iapply (fwd_A c (grid0.coords t) _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        iexists _; iexact H3
      · rw [PhiS0_pos V c _ _ hz]
        iintro ⟨⟨⟨HS, Hr⟩, Hg⟩, Ho, ⟨%d0, H0⟩, ⟨%d1, H1⟩, ⟨%d2, H2⟩, ⟨%d3, H3⟩⟩
        iapply (fwd_A c (grid0.coords t) _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [acc0_next V c t h0, PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (fwd_B c (grid0.coords t) _ _ _ _ _ _ _ _ _ _ (fun h => h0 ((hcond0_0 t).mp h)) (fun h => h1 ((hcond0_1 t).mp h))
        (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hr⟩, Hg⟩
  isplitl [HS Hr]
  · isplitl [HS]; · iexists _; iexact HS
    iexact Hr
  iexact Hg

end Cert.KernelIdeal.Hand

end
-- ==== Proof.K1.lean ====
/-
  Region 1 (the inverse transform): for a row block `i` of 1024 graph nodes the scratch accumulates, over the four
  blocks `k` of 2048 spectral rows, the products `U[iblk, kblk] · scaled[kblk, :]`; at the last `k` the sum is stored
  into the output window. Here: the blocks the body finds, the scratch after each point (a fold over the points of
  one row block, restarted where `k = 0`), the proof data and the invariant that carries the scratch.
-/
import proofs.«173338_j37280316129403_1_alg».proof.Proof.Gen.KernelIdeal.Launch
import proofs.«173338_j37280316129403_1_alg».proof.Proof.Gen.KernelIdeal.Skeleton
import proofs.«173338_j37280316129403_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The scratch after each point -/

/-- The accumulator after the body at position `n`: where `k = 0` (`n ≡ 0 mod 4`) the partial product over zeros,
    elsewhere over what the point before left. -/
def acc1 (c : Dev nD) : (n : ℕ) → n < cfg1.N → Vec F S1024x32 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_next (c : Dev nD) (t : Fin cfg1.N) (h : ¬t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact if_neg h

/-! ## The body's branch conditions, decided over the grid -/

/-- The first conditional (`k = 0`: reset the accumulator). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional (`k = 3`: store the output block). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body on whole staging memrefs, case by case -/

set_option maxHeartbeats 1000000 in
/-- A middle point (`0 < k < 3`): the accumulator gains the block product, the output window is left as found. -/
theorem inv_B (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hc0 : ¬cond1_0 i) (hc1 : ¬cond1_1 i)
    (x0 : Vec F S1024x2048 .f32) (x1 : Vec F S2048x32 .f32) (d2 : Vec F S1024x32 .f32) (s : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare d2 ∗ owns (c : Thread nD τ) arg5 fullShare s
        ∗ (iprop(owns (c : Thread nD τ) arg2 fullShare x0 ∗ owns (c : Thread nD τ) arg3 fullShare x1 ∗ owns (c : Thread nD τ) arg4 fullShare d2 ∗ owns (c : Thread nD τ) arg5 fullShare (k1_pay2 x0 x1 s)) -∗ K ⟨⟩))
      ⊢ wp frame (wpE (defs₀ (F := F)) Variants.none c none) E (cc1__inv_kernel i arg2 harg2 arg3 harg3 arg4 harg4 arg5 harg5) K := by
  simp only [cc1__inv_kernel_eq_skeleton]; unfold cc1__inv_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg5.eq_unread hfs
  sl_exec (disch := first | exact hc0 | exact hc1)
  sl_step
  iapply Hk
  have hz : (![0, 0] : Fin S1024x32.rank → Nat) = fun _ => 0 := by funext a; fin_cases a <;> rfl
  have hzU : (![0, 0] : Fin S1024x2048.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_singleton_self _, View.mem_set_unit_zero hz Facts₀.inb_S1024x32_S1024x32_0_0 y⟩),
    View.canon_unit_zero hz]
  simp only [View.readAt_eq_ld, harg2.read_unread, harg3.read_unread, harg5.read_unread,
    View.ld_unit_zero (S := S1024x32) hz, View.ld_unit_zero (S := S1024x2048) hzU, View.ld_unit_zero (S := S2048x32) hzX]

set_option maxHeartbeats 1000000 in
/-- A first point (`k = 0`): the accumulator is reset to zeros and gains the block product; the output window is left as found. -/
theorem inv_A (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hc0 : cond1_0 i) (hc1 : ¬cond1_1 i)
    (x0 : Vec F S1024x2048 .f32) (x1 : Vec F S2048x32 .f32) (d2 : Vec F S1024x32 .f32)
    (E : Set ℕ) (K : PUnit → sProp 𝕄) :
    iprop(owns (c : Thread nD τ) arg2 fullShare x0 ∗ owns (c : Thread nD τ) arg3 fullShare x1 ∗ owns (c : Thread nD τ) arg4 fullShare d2 ∗ (∃ s, owns (c : Thread nD τ) arg5 fullShare s)
        ∗ (iprop(owns (c : Thread nD τ) arg2 fullShare x0 ∗ owns (c : Thread nD τ) arg3 fullShare x1 ∗ owns (c : Thread nD τ) arg4 fullShare d2 ∗ owns (c : Thread nD τ) arg5 fullShare (k1_pay2 x0 x1 (k1_pay1 (F := F)))) -∗ K ⟨⟩))
      ⊢ wp frame (wpE (defs₀ (F := F)) Variants.none c none) E (cc1__inv_kernel i arg2 harg2 arg3 harg3 arg4 harg4 arg5 harg5) K := by
  simp only [cc1__inv_kernel_eq_skeleton]; unfold cc1__inv_kernel_skel
  unfold owns
  iintro ⟨⟨%f0, %hf0, H0⟩, ⟨%f1, %hf1, H1⟩, ⟨%f2, %hf2, H2⟩, ⟨%s, %fs, -, HS⟩, Hk⟩
  obtain rfl := harg2.eq_unread hf0; obtain rfl := harg3.eq_unread hf1; obtain rfl := harg4.eq_unread hf2
  sl_exec (disch := first | exact hc0 | exact hc1)
  sl_step
  iapply Hk
  have hz : (![0, 0] : Fin S1024x32.rank → Nat) = fun _ => 0 := by funext a; fin_cases a <;> rfl
  have hzU : (![0, 0] : Fin S1024x2048.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self, View.mem_set_unit_zero hz Facts₀.inb_S1024x32_S1024x32_0_0 y⟩),
    View.canon_cons_unit_zero hz]
  simp only [View.readAt_eq_ld, harg2.read_unread, harg3.read_unread,
    View.ld_unit_zero (S := S1024x32) hz, View.ld_unit_zero (S := S1024x2048) hzU, View.ld_unit_zero (S := S2048x32) hzX,
    View.readCov_unit_zero (S := S1024x32) _ hz]

set_option maxHeartbeats 1000000 in
/-- A last point (`k = 3`): the accumulator gains the block product and is stored into the output window. -/
theorem inv_C (c : Dev nD) (i : grid1.Coords) (arg2 : Memref sig .tc .vmem S1024x2048 .f32) (harg2 : arg2.IsWhole) (arg3 : Memref sig .tc .vmem S2048x32 .f32) (harg3 : arg3.IsWhole) (arg4 : Memref sig .tc .vmem S1024x32 .f32) (harg4 : arg4.IsWhole) (arg5 : Memref sig .tc .vmem S1024x32 .f32) (harg5 : arg5.IsWhole)
    (hc0 : ¬cond1_0 i) (hc1 : cond1_1 i)
    (x0 : Vec F S1024x2048 .f32) (x1 : Vec F S2048x32 .f32) (s : Vec F S1024x32 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (k1_pay2 x0 x1 s) ∗ owns (c : Thread nD τ) arg5 fullShare (k1_pay2 x0 x1 s)) -∗ K ⟨⟩))
      ⊢ wp frame (wpE (defs₀ (F := F)) Variants.none c none) E (cc1__inv_kernel i arg2 harg2 arg3 harg3 arg4 harg4 arg5 harg5) K := by
  simp only [cc1__inv_kernel_eq_skeleton]; unfold cc1__inv_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  have hz : (![0, 0] : Fin S1024x32.rank → Nat) = fun _ => 0 := by funext a; fin_cases a <;> rfl
  have hzU : (![0, 0] : Fin S1024x2048.rank → Nat) = fun _ => 0 := by funext a; fin_cases a <;> rfl
  have hzX : (![0, 0] : Fin S2048x32.rank → Nat) = fun _ => 0 := by funext a; fin_cases a <;> rfl
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_singleton_self _, View.mem_set_unit_zero hz Facts₀.inb_S1024x32_S1024x32_0_0 y⟩),
      View.canon_unit_zero hz]
    simp only [View.readAt_eq_ld, harg2.read_unread, harg3.read_unread, harg5.read_unread,
      View.ld_unit_zero (S := S1024x32) hz, View.ld_unit_zero (S := S1024x2048) hzU, View.ld_unit_zero (S := S2048x32) hzX,
      View.readCov_unit_zero (S := S1024x32) _ hz]
  iexists _; isplitr
  swap; · iexact HS
  ipureintro
  sl_unfold_words
  rw [View.read_writes_eq_canon _ _ _ (fun y => ⟨_, List.mem_singleton_self _, View.mem_set_unit_zero hz Facts₀.inb_S1024x32_S1024x32_0_0 y⟩),
    View.canon_unit_zero hz]
  simp only [View.readAt_eq_ld, harg2.read_unread, harg3.read_unread, harg5.read_unread,
    View.ld_unit_zero (S := S1024x32) hz, View.ld_unit_zero (S := S1024x2048) hzU, View.ld_unit_zero (S := S2048x32) hzX]

/-! ## The invariant that carries the accumulator -/

/-- The accumulator's scratch operand. -/
abbrev scM1 : Memref sig .tc .vmem S1024x32 .f32 := Memref.whole cc1_scratch0

/-- The class invariant with the accumulator (the last of the core's scoped buffers no window of this call stages) singled out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- Before position `n`: at the first point anything (the class's invariant); afterwards the accumulator at what the
    point before left, the other scoped buffers and the generator register at anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c (n - 1) (by omega))) ∗ (∃ r, prngReg c r)) := by
  cases n with
  | zero => exact absurd rfl hz
  | succ n => rfl

/-! ## The proof data -/

/-- The arrays as the region finds them; after the body each input's buffer at its block, the output's at the
    accumulator (consulted only where `k = 3`: elsewhere the window is idle and not written back); the invariant
    `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position of the point in its row block
    (`t mod 4`) says which case runs; the invariant hands over the accumulator at what the point before left (at
    anything where `k = 0`, which resets it) and takes it back at this point's contents; where `k ≠ 3` the output
    window is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    rw [acc1_next V c t h0, PhiS1_castSucc V c t, PhiS1_pos V c _ _ hz]
    · iintro ⟨⟨⟨R0, R1, R2, R3, R4, R5, R6, R7, R8, HS⟩, Hg⟩, Ho, ⟨%d0, H0⟩, ⟨%d1, H1⟩, ⟨%d2, H2⟩⟩
      iapply (inv_C c (grid1.coords t) _ _ _ _ _ _ _ _ (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [R0 R1 R2 R3 R4 R5 R6 R7 R8 HS Hg]
      · isplitl [R0 R1 R2 R3 R4 R5 R6 R7 R8 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [acc1_first V c t h0, PhiS1_castSucc V c t]
      by_cases hz : t.val = 0
      · rw [PhiS1_zero V c _ _ hz, PhiA1_eq]
        iintro ⟨⟨⟨R0, R1, R2, R3, R4, R5, R6, R7, R8, HS⟩, Hg⟩, Ho, ⟨%d0, H0⟩, ⟨%d1, H1⟩, ⟨%d2, H2⟩⟩
        iapply (inv_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexact HS
        iintro ⟨H0, H1, H2, HS⟩
        isplitl [R0 R1 R2 R3 R4 R5 R6 R7 R8 HS Hg]
        · isplitl [R0 R1 R2 R3 R4 R5 R6 R7 R8 HS]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact HS
          iexact Hg
        isplitl [Ho]; · iexact Ho
        isplitl [H0]; · iexact H0
        isplitl [H1]; · iexact H1
        iexists _; iexact H2
      · rw [PhiS1_pos V c _ _ hz]
        iintro ⟨⟨⟨R0, R1, R2, R3, R4, R5, R6, R7, R8, HS⟩, Hg⟩, Ho, ⟨%d0, H0⟩, ⟨%d1, H1⟩, ⟨%d2, H2⟩⟩
        iapply (inv_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexists _; iexact HS
        iintro ⟨H0, H1, H2, HS⟩
        isplitl [R0 R1 R2 R3 R4 R5 R6 R7 R8 HS Hg]
        · isplitl [R0 R1 R2 R3 R4 R5 R6 R7 R8 HS]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact HS
          iexact Hg
        isplitl [Ho]; · iexact Ho
        isplitl [H0]; · iexact H0
        isplitl [H1]; · iexact H1
        iexists _; iexact H2
    · have hz : t.val ≠ 0 := fun e => h0 (by rw [e])
      rw [acc1_next V c t h0, PhiS1_castSucc V c t, PhiS1_pos V c _ _ hz]
      iintro ⟨⟨⟨R0, R1, R2, R3, R4, R5, R6, R7, R8, HS⟩, Hg⟩, Ho, ⟨%d0, H0⟩, ⟨%d1, H1⟩, ⟨%d2, H2⟩⟩
      iapply (inv_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [R0 R1 R2 R3 R4 R5 R6 R7 R8 HS Hg]
      · isplitl [R0 R1 R2 R3 R4 R5 R6 R7 R8 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨R0, R1, R2, R3, R4, R5, R6, R7, R8, HS⟩, Hg⟩
  isplitl [R0 R1 R2 R3 R4 R5 R6 R7 R8 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

end Cert.KernelIdeal.Hand

end
-- ==== Proof.Run.lean ====
/-
  The run of the whole program: the transposition of the filter table on the host, then the two kernel regions, each
  entered from what the item before left in the core's unscoped buffers. The contents at each boundary are a fold from
  the launch memory; the last one holds the second region's output at what its write-backs leave and every argument
  array as launched.
-/
import proofs.«173338_j37280316129403_1_alg».proof.Proof.K0
import proofs.«173338_j37280316129403_1_alg».proof.Proof.K1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host transposition (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry): its arrays at what its write-backs leave, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the regions read, and what the run leaves -/

/-- The node features reach the first region as launched (the host line writes another buffer). -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl

/-- The eigenvector matrix reaches the second region as launched: the first region only reads it. -/
theorem W2_main_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_main_arg1 m ρ c)
theorem W2_main_arg0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_main_arg0 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
/-- The scaled spectrum the second region reads is what the first region's write-backs left. -/
theorem W2_main_v1 (c : Dev nD) : W2 m ρ c (Proc.devRef .tc main_v1) = (dat0 (V1 m ρ) c).arrAt 3 cfg0.N :=
  W2_arr m ρ c 3

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
/-- The result is what the second region's write-backs left. -/
theorem W3_main_v2 (c : Dev nD) : W3 m ρ c (Proc.devRef .tc main_v2) = (dat1 (V2 m ρ) c).arrAt 2 cfg1.N :=
  W3_arr m ρ c 2

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from the buffers at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the buffers at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, with
    the result buffer at what the second region's write-backs leave and every argument array as launched. -/
theorem run_main : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Hand

end
-- ==== Proof.Spec.lean ====
/-
  The mathematics of the spectral graph convolution `out = U · ((Uᵀ · x) ∘ filtersᵀ)` over the extended reals,
  index by index over the literal shapes, and the one law that joins a sum over the 8192 graph nodes to the same
  sum taken block by block (four blocks of 2048, folded from zero left to right): addition of extended reals is
  commutative and associative, so no finiteness is needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SN : Shape := ⟨2, ![8192, 32]⟩
abbrev SU : Shape := ⟨2, ![8192, 8192]⟩
abbrev SF : Shape := ⟨2, ![32, 8192]⟩

/-- The graph Fourier transform of feature column `f` at spectral row `r`: `∑ⱼ U[j, r] · x[j, f]`. -/
def fwd (U : SU.Idx → EReal) (x : SN.Idx → EReal) (r : Fin 8192) (f : Fin 32) : EReal :=
  ∑ j : Fin 8192, U (ix2 j r) * x (ix2 j f)

/-- The filtered spectrum, the filter table given already transposed (`ft[r, f]`). -/
def scaled (U : SU.Idx → EReal) (x : SN.Idx → EReal) (ft : SN.Idx → EReal) : SN.Idx → EReal :=
  fun i => fwd U x (i 0) (i 1) * ft i

/-- The inverse transform: `∑ⱼ U[r, j] · s[j, f]`. -/
def inv (U : SU.Idx → EReal) (s : SN.Idx → EReal) : SN.Idx → EReal :=
  fun i => ∑ j : Fin 8192, U (ix2 (i 0) j) * s (ix2 j (i 1))

/-- The filter table transposed. -/
def tr (flt : SF.Idx → EReal) : SN.Idx → EReal := fun i => flt (ix2 (i 1) (i 0))

/-- The whole convolution as one function of the three arguments. -/
def G (x : SN.Idx → EReal) (U : SU.Idx → EReal) (flt : SF.Idx → EReal) : SN.Idx → EReal :=
  inv U (scaled U x (tr flt))

theorem scaled_apply (U : SU.Idx → EReal) (x ft : SN.Idx → EReal) (r : Fin 8192) (f : Fin 32) :
    scaled U x ft (ix2 r f) = fwd U x r f * ft (ix2 r f) := rfl

theorem inv_apply (U : SU.Idx → EReal) (s : SN.Idx → EReal) (r : Fin 8192) (f : Fin 32) :
    inv U s (ix2 r f) = ∑ j : Fin 8192, U (ix2 r j) * s (ix2 j f) := rfl

theorem tr_apply (flt : SF.Idx → EReal) (r : Fin 8192) (f : Fin 32) : tr flt (ix2 r f) = flt (ix2 f r) := rfl

/-- A sum over the 8192 nodes, taken as four blocks of 2048. -/
theorem sum_blocks (g : Fin 8192 → EReal) :
    ∑ j : Fin 8192, g j = ∑ k : Fin 4, ∑ j : Fin 2048, g ⟨2048 * k.val + j.val, by omega⟩ := by
  rw [← Fintype.sum_prod_type' (f := fun (k : Fin 4) (j : Fin 2048) => g ⟨2048 * k.val + j.val, by omega⟩),
    ← Equiv.sum_comp (finProdFinEquiv (m := 4) (n := 2048)) g]
  refine Finset.sum_congr rfl fun p _ => ?_
  congr 1
  apply Fin.ext
  simp only [finProdFinEquiv_apply_val]
  omega

/-- The accumulator's left fold from zero over the four blocks is their sum. -/
theorem fold4 (p : Fin 4 → EReal) : (((0 + p 0) + p 1) + p 2) + p 3 = ∑ k : Fin 4, p k := by
  rw [Fin.sum_univ_four, zero_add]

end Cert.Spec

end
-- ==== Proof.Value0.lean ====
/-
  Region 0 (the forward transform), read as values over the extended reals. At a point `t = 4 i + k` of the grid
  the body finds the block of `U` at nodes `2048 k …`, spectral rows `1024 i …`, the block of `x` at the same
  nodes, and the block of the transposed filter table at the same spectral rows. The accumulator's update at an index
  is what it held plus the sum over the block's 2048 nodes of `U[j, r] · x[j, f]`; from zero over the four node
  blocks of a row block that is the whole sum over the 8192 nodes (addition is commutative and associative, no
  finiteness is asked). The last point of a row block scales by the filter block and writes the result back: the
  filtered spectrum's rows of that block. The eight row blocks cover the 8192 spectral rows, so after the region the
  output array is the filtered spectrum `fun (r, f) => (∑ⱼ U[j, r] · x[j, f]) · ft[r, f]`.
-/
import proofs.«173338_j37280316129403_1_alg».proof.Proof.K0
import proofs.«173338_j37280316129403_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The block indices, decided over the grid -/

theorem idx0_0 : ∀ t : Fin cfg0.N, win0_0.index t (0 : Fin 2) = t.val % 4 ∧ win0_0.index t (1 : Fin 2) = t.val / 4 :=
  (by decide +kernel : ∀ t : Fin grid0.N, win0_0.index t (0 : Fin 2) = t.val % 4 ∧ win0_0.index t (1 : Fin 2) = t.val / 4)
theorem idx0_1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx0_2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem idx0_3 : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)

variable (V : (c : Dev nD) → (b : Ref sig .tc) → Buf (Elt Ideal) ((c : Thread nD τ).loc b))

/-! ## The blocks as rows and columns of the arrays -/

/-- The block of `U` at point `t`: nodes `2048 (t mod 4) + a`, spectral rows `1024 (t / 4) + b`. -/
theorem ublk0_apply (c : Dev nD) (t : Fin cfg0.N) (a : Fin 2048) (b : Fin 1024) (k : S8192x8192.Idx)
    (hk0 : (k 0).val = 2048 * (t.val % 4) + a.val) (hk1 : (k 1).val = 1024 * (t.val / 4) + b.val) :
    (iblk0 V c 0 t : Vec Ideal S2048x1024 .f32) (ix2 a b) = (V c main_arg1 : S8192x8192.Idx → EReal) k := by
  obtain ⟨e0, e1⟩ := idx0_0 t
  unfold iblk0
  rw [View.read_apply]
  show V c main_arg1 _ = V c main_arg1 _
  congr 1
  funext d
  apply Fin.ext
  match d with
  | ⟨0, _⟩ => show win0_0.index t 0 * 2048 + 1 * a.val = (k 0).val; rw [e0, hk0]; omega
  | ⟨1, _⟩ => show win0_0.index t 1 * 1024 + 1 * b.val = (k 1).val; rw [e1, hk1]; omega

/-- The block of `x` at point `t`: nodes `2048 (t mod 4) + a`, every feature. -/
theorem xblk0_apply (c : Dev nD) (t : Fin cfg0.N) (a : Fin 2048) (f : Fin 32) (k : S8192x32.Idx)
    (hk0 : (k 0).val = 2048 * (t.val % 4) + a.val) (hk1 : (k 1).val = f.val) :
    (iblk0 V c 1 t : Vec Ideal S2048x32 .f32) (ix2 a f) = (V c main_arg0 : S8192x32.Idx → EReal) k := by
  obtain ⟨e0, e1⟩ := idx0_1 t
  unfold iblk0
  rw [View.read_apply]
  show V c main_arg0 _ = V c main_arg0 _
  congr 1
  funext d
  apply Fin.ext
  match d with
  | ⟨0, _⟩ => show win0_1.index t 0 * 2048 + 1 * a.val = (k 0).val; rw [e0, hk0]; omega
  | ⟨1, _⟩ => show win0_1.index t 1 * 32 + 1 * f.val = (k 1).val; rw [e1, hk1]; omega

/-- The block of the transposed filter table at point `t`: spectral rows `1024 (t / 4) + r`, every feature. -/
theorem fblk0_apply (c : Dev nD) (t : Fin cfg0.N) (r : Fin 1024) (f : Fin 32) (k : S8192x32.Idx)
    (hk0 : (k 0).val = 1024 * (t.val / 4) + r.val) (hk1 : (k 1).val = f.val) :
    (iblk0 V c 2 t : Vec Ideal S1024x32 .f32) (ix2 r f) = (V c main_v0 : S8192x32.Idx → EReal) k := by
  obtain ⟨e0, e1⟩ := idx0_2 t
  unfold iblk0
  rw [View.read_apply]
  show V c main_v0 _ = V c main_v0 _
  congr 1
  funext d
  apply Fin.ext
  match d with
  | ⟨0, _⟩ => show win0_2.index t 0 * 1024 + 1 * r.val = (k 0).val; rw [e0, hk0]; omega
  | ⟨1, _⟩ => show win0_2.index t 1 * 32 + 1 * f.val = (k 1).val; rw [e1, hk1]; omega

/-! ## The payloads at an index -/

theorem lhs_dot0_0 (i : S1024x32.Idx) (q : dot_S2048x1024_S2048x32_S1024x32_0_0_1_1_n_n.contr.Idx) :
    (dot_S2048x1024_S2048x32_S1024x32_0_0_1_1_n_n.lhsIdx i q 0).val = (q ⟨0, by decide⟩).val :=
  dot_S2048x1024_S2048x32_S1024x32_0_0_1_1_n_n.lhsIdx_val_of_single rfl i q
theorem lhs_dot0_1 (i : S1024x32.Idx) (q : dot_S2048x1024_S2048x32_S1024x32_0_0_1_1_n_n.contr.Idx) :
    (dot_S2048x1024_S2048x32_S1024x32_0_0_1_1_n_n.lhsIdx i q 1).val = (i 0).val := by
  unfold DotDims.lhsIdx
  rw [dif_neg (show ¬(1 : Fin S2048x1024.rank) ∈ dot_S2048x1024_S2048x32_S1024x32_0_0_1_1_n_n.lhsBatch by decide), dif_pos (show (1 : Fin S2048x1024.rank) ∈ dot_S2048x1024_S2048x32_S1024x32_0_0_1_1_n_n.lhsNonContracting by decide)]
  rfl
theorem rhs_dot0_0 (i : S1024x32.Idx) (q : dot_S2048x1024_S2048x32_S1024x32_0_0_1_1_n_n.contr.Idx) :
    (dot_S2048x1024_S2048x32_S1024x32_0_0_1_1_n_n.rhsIdx i q 0).val = (q ⟨0, by decide⟩).val :=
  dot_S2048x1024_S2048x32_S1024x32_0_0_1_1_n_n.rhsIdx_val_of_single rfl i q
theorem rhs_dot0_1 (i : S1024x32.Idx) (q : dot_S2048x1024_S2048x32_S1024x32_0_0_1_1_n_n.contr.Idx) :
    (dot_S2048x1024_S2048x32_S1024x32_0_0_1_1_n_n.rhsIdx i q 1).val = (i 1).val := by
  unfold DotDims.rhsIdx
  rw [dif_neg (show ¬(1 : Fin S2048x32.rank) ∈ dot_S2048x1024_S2048x32_S1024x32_0_0_1_1_n_n.rhsBatch by decide), dif_pos (show (1 : Fin S2048x32.rank) ∈ dot_S2048x1024_S2048x32_S1024x32_0_0_1_1_n_n.rhsNonContracting by decide)]
  rfl

/-- The block product at an index: the sum over the 2048 nodes of the block. -/
theorem dot0_apply (l : FVec Ideal S2048x1024 .bf16) (r : FVec Ideal S2048x32 .bf16) (p : Fin 1024) (f : Fin 32) :
    matmul dot_S2048x1024_S2048x32_S1024x32_0_0_1_1_n_n none l r (constant (F := Ideal) S1024x32 .f32 0x00000000#32) (ix2 p f)
      = ∑ j : Fin 2048, l (ix2 j p) * r (ix2 j f) := by
  simp only [matmul]
  rw [Ideal.matmul_constant_zero_apply, ← Equiv.sum_comp (ValueIdx.contrEquiv1 dot_S2048x1024_S2048x32_S1024x32_0_0_1_1_n_n 2048 rfl rfl).symm]
  refine Finset.sum_congr rfl fun k _ => ?_
  have hk := ValueIdx.contrEquiv1_symm_val dot_S2048x1024_S2048x32_S1024x32_0_0_1_1_n_n 2048 rfl rfl k
  have el : dot_S2048x1024_S2048x32_S1024x32_0_0_1_1_n_n.lhsIdx (ix2 p f) ((ValueIdx.contrEquiv1 dot_S2048x1024_S2048x32_S1024x32_0_0_1_1_n_n 2048 rfl rfl).symm k) = ix2 k p := funext fun a => Fin.ext (by
    match a with
    | ⟨0, _⟩ => exact (lhs_dot0_0 _ _).trans hk
    | ⟨1, _⟩ => exact lhs_dot0_1 _ _)
  have er : dot_S2048x1024_S2048x32_S1024x32_0_0_1_1_n_n.rhsIdx (ix2 p f) ((ValueIdx.contrEquiv1 dot_S2048x1024_S2048x32_S1024x32_0_0_1_1_n_n 2048 rfl rfl).symm k) = ix2 k f := funext fun a => Fin.ext (by
    match a with
    | ⟨0, _⟩ => exact (rhs_dot0_0 _ _).trans hk
    | ⟨1, _⟩ => exact rhs_dot0_1 _ _)
  rw [el, er]

/-- The accumulator's update at an index. -/
theorem k0_pay2_apply (x0 : Vec Ideal S2048x1024 .f32) (x1 : Vec Ideal S2048x32 .f32) (s : Vec Ideal S1024x32 .f32) (p : Fin 1024) (f : Fin 32) :
    k0_pay2 (F := Ideal) x0 x1 s (ix2 p f) = s (ix2 p f) + ∑ j : Fin 2048, x0 (ix2 j p) * x1 (ix2 j f) := by
  unfold k0_pay2
  rw [shapeCast_self]
  refine (addf_apply _ _ _).trans ?_
  refine congrArg (s (ix2 p f) + ·) ?_
  exact dot0_apply _ _ p f

/-- The reset value at an index. -/
theorem k0_pay1_apply (p : Fin 1024) (f : Fin 32) : k0_pay1 (F := Ideal) (ix2 p f) = 0 := by
  unfold k0_pay1
  rw [shapeCast_self]
  exact Ideal.ofBits_zero_f32

/-- The scaling at an index. -/
theorem k0_pay3_apply (a b : Vec Ideal S1024x32 .f32) (i : S1024x32.Idx) : k0_pay3 (F := Ideal) a b i = a i * b i := by
  unfold k0_pay3
  rw [shapeCast_self]
  rfl

/-! ## The accumulator over one row block -/

/-- The three input blocks at a point, at their literal types. -/
abbrev ublk0 (c : Dev nD) (t : Fin cfg0.N) : Vec Ideal S2048x1024 .f32 := iblk0 V c 0 t
abbrev xblk0 (c : Dev nD) (t : Fin cfg0.N) : Vec Ideal S2048x32 .f32 := iblk0 V c 1 t
abbrev fblk0 (c : Dev nD) (t : Fin cfg0.N) : Vec Ideal S1024x32 .f32 := iblk0 V c 2 t

/-- What node block `k` contributes to the transform's sum at spectral row `R`, feature `f`. -/
def fwdPart (U : Cert.Spec.SU.Idx → EReal) (x : Cert.Spec.SN.Idx → EReal) (R : Fin 8192) (f : Fin 32) (k : Fin 4) : EReal :=
  ∑ j : Fin 2048, U (ix2 (⟨2048 * k.val + j.val, by omega⟩ : Fin 8192) R) * x (ix2 (⟨2048 * k.val + j.val, by omega⟩ : Fin 8192) f)

theorem fwd_eq_fwdParts (U : Cert.Spec.SU.Idx → EReal) (x : Cert.Spec.SN.Idx → EReal) (R : Fin 8192) (f : Fin 32) :
    Cert.Spec.fwd U x R f = ∑ k : Fin 4, fwdPart U x R f k := by
  unfold Cert.Spec.fwd fwdPart
  exact Cert.Spec.sum_blocks (fun j => U (ix2 j R) * x (ix2 j f))

/-- The block product at point `s` is the contribution of node block `s mod 4`, at the spectral row the block's row is. -/
theorem blockprod0 (c : Dev nD) (s : Fin cfg0.N) (k : Fin 4) (hk : s.val % 4 = k.val) (r : Fin 1024) (f : Fin 32) (R : Fin 8192)
    (hR : R.val = 1024 * (s.val / 4) + r.val) :
    ∑ j : Fin 2048, ublk0 V c s (ix2 j r) * xblk0 V c s (ix2 j f) = fwdPart (V c main_arg1) (V c main_arg0) R f k := by
  unfold fwdPart
  refine Finset.sum_congr rfl fun j _ => ?_
  exact congrArg₂ (· * ·)
    (ublk0_apply V c s j r (ix2 (⟨2048 * k.val + j.val, by omega⟩ : Fin 8192) R) (by show 2048 * k.val + j.val = _; rw [hk]) hR)
    (xblk0_apply V c s j f (ix2 (⟨2048 * k.val + j.val, by omega⟩ : Fin 8192) f) (by show 2048 * k.val + j.val = _; rw [hk]) rfl)

/-- A first point of a row block leaves the first node block's contribution. -/
theorem acc0_first_apply (c : Dev nD) (n : ℕ) (hn : n < cfg0.N) (h0 : n % 4 = 0) (r : Fin 1024) (f : Fin 32) (R : Fin 8192)
    (hR : R.val = 1024 * (n / 4) + r.val) :
    acc0 V c n hn (ix2 r f) = 0 + fwdPart (V c main_arg1) (V c main_arg0) R f 0 := by
  refine (congrFun (acc0_first V c ⟨n, hn⟩ h0) (ix2 r f)).trans ?_
  refine (k0_pay2_apply (ublk0 V c ⟨n, hn⟩) (xblk0 V c ⟨n, hn⟩) (k0_pay1 (F := Ideal)) r f).trans ?_
  exact congrArg₂ (· + ·) (k0_pay1_apply r f) (blockprod0 V c ⟨n, hn⟩ 0 h0 r f R hR)

/-- A later point adds its node block's contribution. -/
theorem acc0_next_apply (c : Dev nD) (n : ℕ) (hn : n < cfg0.N) (k : Fin 4) (hk : n % 4 = k.val) (h0 : ¬n % 4 = 0) (r : Fin 1024) (f : Fin 32)
    (R : Fin 8192) (hR : R.val = 1024 * (n / 4) + r.val) :
    acc0 V c n hn (ix2 r f)
      = acc0 V c (n - 1) (Nat.lt_of_le_of_lt (Nat.sub_le _ _) hn) (ix2 r f) + fwdPart (V c main_arg1) (V c main_arg0) R f k := by
  refine (congrFun (acc0_next V c ⟨n, hn⟩ h0) (ix2 r f)).trans ?_
  refine (k0_pay2_apply (ublk0 V c ⟨n, hn⟩) (xblk0 V c ⟨n, hn⟩) (acc0 V c (n - 1) (Nat.lt_of_le_of_lt (Nat.sub_le _ _) hn)) r f).trans ?_
  exact congrArg (acc0 V c (n - 1) (Nat.lt_of_le_of_lt (Nat.sub_le _ _) hn) (ix2 r f) + ·) (blockprod0 V c ⟨n, hn⟩ k hk r f R hR)

/-- After the last point of a row block the accumulator holds the transform's rows of that block. -/
theorem acc0_last_apply (c : Dev nD) (t : Fin cfg0.N) (h3 : t.val % 4 = 3) (r : Fin 1024) (f : Fin 32) (R : Fin 8192)
    (hR : R.val = 1024 * (t.val / 4) + r.val) :
    acc0 V c t.val t.isLt (ix2 r f) = Cert.Spec.fwd (V c main_arg1) (V c main_arg0) R f := by
  have hN : cfg0.N = 32 := N_0
  have ht : t.val < 32 := lt_of_lt_of_eq t.isLt hN
  rw [acc0_next_apply V c t.val t.isLt 3 (by omega) (by omega) r f R hR,
    acc0_next_apply V c (t.val - 1) (by omega) 2 (by omega) (by omega) r f R (by omega),
    acc0_next_apply V c (t.val - 1 - 1) (by omega) 1 (by omega) (by omega) r f R (by omega),
    acc0_first_apply V c (t.val - 1 - 1 - 1) (by omega) (by omega) r f R (by omega),
    fwd_eq_fwdParts]
  exact Cert.Spec.fold4 (fwdPart (V c main_arg1) (V c main_arg0) R f)

/-! ## What a last point writes back, and the array after the region -/

/-- The last point of a row block writes back the filtered spectrum's rows of that block. -/
theorem flushed0_3_eq (c : Dev nD) (t : Fin cfg0.N) (hf : (cfg0.win 3).flush t = true) :
    (dat0 (F := Ideal) V c).flushed 3 t
      = ((cfg0.win 3).blk t).view.read (Elt Ideal) (Cert.Spec.scaled (V c main_arg1) (V c main_arg0) (V c main_v0)) := by
  have h3 : t.val % 4 = 3 := (flush0_3 t).mp hf
  obtain ⟨e0, e1⟩ := idx0_3 t
  have hN : cfg0.N = 32 := N_0
  have ht : t.val < 32 := lt_of_lt_of_eq t.isLt hN
  show (cfg0.win 3).cut (grid0.coords t) ((dat0 V c).after 3 t) = _
  rw [after0_3]
  funext y
  obtain ⟨p, q, rfl⟩ : ∃ (p : Fin 1024) (q : Fin 32), y = ix2 p q := ⟨y 0, y 1, eq_ix2 y⟩
  rw [View.read_apply]
  show k0_pay3 (F := Ideal) (acc0 V c t.val t.isLt) (fblk0 V c t) (ix2 p q)
    = Cert.Spec.scaled (V c main_arg1) (V c main_arg0) (V c main_v0) (((cfg0.win 3).blk t).view.emb (ix2 p q))
  have he : ((cfg0.win 3).blk t).view.emb (ix2 p q) = ix2 (⟨1024 * (t.val / 4) + p.val, by omega⟩ : Fin 8192) q := by
    funext a
    apply Fin.ext
    match a with
    | ⟨0, _⟩ => show win0_3.index t 0 * 1024 + 1 * p.val = 1024 * (t.val / 4) + p.val; rw [e0]; omega
    | ⟨1, _⟩ => show win0_3.index t 1 * 32 + 1 * q.val = q.val; rw [e1]; omega
  refine (k0_pay3_apply _ _ _).trans ?_
  refine Eq.trans ?_ (congrArg (Cert.Spec.scaled (V c main_arg1) (V c main_arg0) (V c main_v0)) he).symm
  exact congrArg₂ (· * ·) (acc0_last_apply V c t h3 p q _ rfl) (fblk0_apply V c t p q _ rfl rfl)

/-- Every spectral row lies in the block the last point of its row block writes back: after the region the output array
    holds the filtered spectrum. -/
theorem arr0_eq (c : Dev nD) :
    (dat0 (F := Ideal) V c).arrAt 3 cfg0.N = Cert.Spec.scaled (V c main_arg1) (V c main_arg0) (V c main_v0) :=
  (dat0 (F := Ideal) V c).arrAt_eq_of_cover 3 (Cert.Spec.scaled (V c main_arg1) (V c main_arg0) (V c main_v0)) (flushed0_3_eq V c) fun i => by
    have hi0 : (i 0 : Nat) < 8192 := (i 0).isLt
    have hi1 : (i 1 : Nat) < 32 := (i 1).isLt
    have hN : cfg0.N = 32 := N_0
    have hlt : 4 * ((i 0 : Nat) / 1024) + 3 < cfg0.N := by omega
    obtain ⟨e0, e1⟩ := idx0_3 ⟨4 * ((i 0 : Nat) / 1024) + 3, hlt⟩
    refine ⟨⟨4 * ((i 0 : Nat) / 1024) + 3, hlt⟩, (flush0_3 _).mpr (by show (4 * ((i 0 : Nat) / 1024) + 3) % 4 = 3; omega), ?_⟩
    show i ∈ ((View.whole main_v1).slice (win0_3.rect ⟨4 * ((i 0 : Nat) / 1024) + 3, hlt⟩)).set
    rw [View.set_slice_whole, Rect.mem_set_unit]
    intro a
    match a with
    | ⟨0, _⟩ =>
      show win0_3.index ⟨4 * ((i 0 : Nat) / 1024) + 3, hlt⟩ 0 * 1024 ≤ (i 0 : Nat)
        ∧ (i 0 : Nat) < win0_3.index ⟨4 * ((i 0 : Nat) / 1024) + 3, hlt⟩ 0 * 1024 + 1024
      rw [e0]; show (4 * ((i 0 : Nat) / 1024) + 3) / 4 * 1024 ≤ (i 0 : Nat) ∧ (i 0 : Nat) < (4 * ((i 0 : Nat) / 1024) + 3) / 4 * 1024 + 1024
      omega
    | ⟨1, _⟩ =>
      show win0_3.index ⟨4 * ((i 0 : Nat) / 1024) + 3, hlt⟩ 1 * 32 ≤ (i 1 : Nat)
        ∧ (i 1 : Nat) < win0_3.index ⟨4 * ((i 0 : Nat) / 1024) + 3, hlt⟩ 1 * 32 + 32
      rw [e1]; omega

end Cert.KernelIdeal.Hand

end
-- ==== Proof.Value1.lean ====
/-
  The value of the inverse transform's output array over the extended reals. For a row block `i` of 1024 graph nodes
  the accumulator gains, at each of the four blocks `k` of 2048 spectral rows, the block product
  `∑ⱼ U[1024 i + r, 2048 k + j] · s[2048 k + j, f]`, starting from zero at `k = 0`; at `k = 3` it holds the left fold
  of the four block products from zero, which is the whole sum `∑ⱼ U[1024 i + r, j] · s[j, f]` over the 8192 spectral
  rows, and that is what is written back to rows `1024 i … 1024 i + 1023` of the output. The eight row blocks tile
  the output, so the output array ends as `inv U s`.
-/
import proofs.«173338_j37280316129403_1_alg».proof.Proof.K1
import proofs.«173338_j37280316129403_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe
open Idealize.SL.Sem
open Idealize.ShloMosaic.Pipeline (Dat Cfg Window)
open Idealize.ShloMosaic.ValueIdx
open Cert.KernelIdeal Cert.KernelIdeal.Gen

/-! ## The index maps over the grid -/

/-- At point `t = 4 i + k`: the block of `U` is `(i, k)`, the block of the scaled spectrum `(k, 0)`, the output's `(i, 0)`. -/
theorem v1_idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-! ## The block product at an index -/

/-- The block product's dimension numbers: contract axis 1 of the left block with axis 0 of the right. -/
abbrev v1_D := dot_S1024x2048_S2048x32_S1024x32_1_0_0_1_n_n

theorem v1_lhs0 (i : S1024x32.Idx) (q : v1_D.contr.Idx) : (v1_D.lhsIdx i q 0).val = (i 0).val := by
  unfold DotDims.lhsIdx
  rw [dif_neg (show ¬(0 : Fin S1024x2048.rank) ∈ v1_D.lhsBatch by decide), dif_pos (show (0 : Fin S1024x2048.rank) ∈ v1_D.lhsNonContracting by decide)]
  rfl
theorem v1_lhs1 (i : S1024x32.Idx) (q : v1_D.contr.Idx) : (v1_D.lhsIdx i q 1).val = (q ⟨0, by decide⟩).val :=
  v1_D.lhsIdx_val_of_single rfl i q
theorem v1_rhs0 (i : S1024x32.Idx) (q : v1_D.contr.Idx) : (v1_D.rhsIdx i q 0).val = (q ⟨0, by decide⟩).val :=
  v1_D.rhsIdx_val_of_single rfl i q
theorem v1_rhs1 (i : S1024x32.Idx) (q : v1_D.contr.Idx) : (v1_D.rhsIdx i q 1).val = (i 1).val := by
  unfold DotDims.rhsIdx
  rw [dif_neg (show ¬(1 : Fin S2048x32.rank) ∈ v1_D.rhsBatch by decide), dif_pos (show (1 : Fin S2048x32.rank) ∈ v1_D.rhsNonContracting by decide)]
  rfl

/-- The reset stores zero. -/
theorem v1_pay1_apply (i : S1024x32.Idx) : k1_pay1 (F := Ideal) i = 0 := by
  unfold k1_pay1
  rw [shapeCast_self]
  show Ideal.ofBits .f32 0x00000000#32 = 0
  exact Ideal.ofBits_zero_f32

/-- The accumulation step at `(r, f)`: what the accumulator held plus `∑ⱼ x0[r, j] · x1[j, f]` over the block's 2048 columns. -/
theorem v1_pay2_apply (x0 : Vec Ideal S1024x2048 .f32) (x1 : Vec Ideal S2048x32 .f32) (s : Vec Ideal S1024x32 .f32)
    (r : Fin 1024) (f : Fin 32) :
    k1_pay2 (F := Ideal) x0 x1 s (ix2 r f) = s (ix2 r f) + ∑ j : Fin 2048, x0 (ix2 r j) * x1 (ix2 j f) := by
  unfold k1_pay2
  rw [shapeCast_self, shapeCast_self, addf_apply]
  simp only [matmul]
  rw [Ideal.matmul_constant_zero_apply, ← Equiv.sum_comp (contrEquiv1 v1_D 2048 rfl rfl).symm]
  congr 1
  refine Finset.sum_congr rfl fun k _ => ?_
  have hk := contrEquiv1_symm_val v1_D 2048 rfl rfl k
  have el : v1_D.lhsIdx (ix2 r f) ((contrEquiv1 v1_D 2048 rfl rfl).symm k) = ix2 r k := funext fun a => Fin.ext (by
    match a with
    | ⟨0, _⟩ => exact v1_lhs0 _ _
    | ⟨1, _⟩ => exact (v1_lhs1 _ _).trans hk)
  have er : v1_D.rhsIdx (ix2 r f) ((contrEquiv1 v1_D 2048 rfl rfl).symm k) = ix2 k f := funext fun a => Fin.ext (by
    match a with
    | ⟨0, _⟩ => exact (v1_rhs0 _ _).trans hk
    | ⟨1, _⟩ => exact v1_rhs1 _ _)
  rw [el, er, truncf_apply, truncf_apply]

/-! ## The blocks the body finds, as elements of the arrays -/

variable (V : (c : Dev nD) → (b : Ref sig .tc) → Buf (Elt Ideal) ((c : Thread nD τ).loc b))

/-- The block of `U` at point `t`, element `(a, b)`: `U[1024 (t / 4) + a, 2048 (t mod 4) + b]`. -/
theorem v1_iblk0_apply (c : Dev nD) (t : Fin cfg1.N) (a : Fin 1024) (b : Fin 2048) (k : S8192x8192.Idx)
    (hk0 : (k 0).val = 1024 * (t.val / 4) + a.val) (hk1 : (k 1).val = 2048 * (t.val % 4) + b.val) :
    (iblk1 (F := Ideal) V c 0 t : Vec Ideal S1024x2048 .f32) (ix2 a b) = (V c main_arg1 : S8192x8192.Idx → EReal) k := by
  obtain ⟨e0, e1, -⟩ := v1_idx_facts t
  unfold iblk1
  rw [View.read_apply]
  show V c main_arg1 _ = V c main_arg1 _
  congr 1
  funext d
  apply Fin.ext
  match d with
  | ⟨0, _⟩ => show win1_0.index t (0 : Fin 2) * 1024 + 1 * a.val = (k 0).val; rw [e0, hk0]; omega
  | ⟨1, _⟩ => show win1_0.index t (1 : Fin 2) * 2048 + 1 * b.val = (k 1).val; rw [e1, hk1]; omega

/-- The block of the scaled spectrum at point `t`, element `(j, f)`: `s[2048 (t mod 4) + j, f]`. -/
theorem v1_iblk1_apply (c : Dev nD) (t : Fin cfg1.N) (j : Fin 2048) (f : Fin 32) (k : S8192x32.Idx)
    (hk0 : (k 0).val = 2048 * (t.val % 4) + j.val) (hk1 : (k 1).val = f.val) :
    (iblk1 (F := Ideal) V c 1 t : Vec Ideal S2048x32 .f32) (ix2 j f) = (V c main_v1 : S8192x32.Idx → EReal) k := by
  obtain ⟨-, -, e2, e3, -⟩ := v1_idx_facts t
  unfold iblk1
  rw [View.read_apply]
  show V c main_v1 _ = V c main_v1 _
  congr 1
  funext d
  apply Fin.ext
  match d with
  | ⟨0, _⟩ => show win1_1.index t (0 : Fin 2) * 2048 + 1 * j.val = (k 0).val; rw [e2, hk0]; omega
  | ⟨1, _⟩ => show win1_1.index t (1 : Fin 2) * 32 + 1 * f.val = (k 1).val; rw [e3, hk1]; omega

/-! ## The accumulator -/

/-- The product of block `(i, k)` of `U` with block `k` of `s`, at `(r, f)`. -/
def v1_part (U : Cert.Spec.SU.Idx → EReal) (s : Cert.Spec.SN.Idx → EReal) (i : Fin 8) (r : Fin 1024) (f : Fin 32)
    (k : Fin 4) : EReal :=
  ∑ j : Fin 2048, U (ix2 (⟨1024 * i.val + r.val, by omega⟩ : Fin 8192) (⟨2048 * k.val + j.val, by omega⟩ : Fin 8192))
    * s (ix2 (⟨2048 * k.val + j.val, by omega⟩ : Fin 8192) f)

/-- One step of the accumulator at point `t = 4 i + k`, at `(r, f)`: it gains the product of block `(i, k)`. -/
theorem v1_step_apply (c : Dev nD) (t : Fin cfg1.N) (i : Fin 8) (k : Fin 4) (hi : t.val / 4 = i.val) (hk : t.val % 4 = k.val)
    (s : Vec Ideal S1024x32 .f32) (r : Fin 1024) (f : Fin 32) :
    k1_pay2 (F := Ideal) (iblk1 V c 0 t) (iblk1 V c 1 t) s (ix2 r f)
      = s (ix2 r f) + v1_part (V c main_arg1) (V c main_v1) i r f k := by
  rw [v1_pay2_apply]
  congr 1
  unfold v1_part
  refine Finset.sum_congr rfl fun j _ => ?_
  rw [v1_iblk0_apply V c t r j (ix2 (⟨1024 * i.val + r.val, by omega⟩ : Fin 8192) (⟨2048 * k.val + j.val, by omega⟩ : Fin 8192))
      (by show 1024 * i.val + r.val = _; rw [hi]) (by show 2048 * k.val + j.val = _; rw [hk]),
    v1_iblk1_apply V c t j f (ix2 (⟨2048 * k.val + j.val, by omega⟩ : Fin 8192) f)
      (by show 2048 * k.val + j.val = _; rw [hk]) rfl]

/-- The accumulator depends on the point's number only. -/
theorem v1_acc_congr (c : Dev nD) (n m : ℕ) (h : n = m) (hn : n < cfg1.N) (hm : m < cfg1.N) :
    acc1 (F := Ideal) V c n hn = acc1 V c m hm := by
  subst h; rfl

/-- At the last point of row block `i` the accumulator holds, at `(r, f)`, the whole sum over the 8192 spectral rows. -/
theorem v1_acc_last (c : Dev nD) (i : Fin 8) (h3 : 4 * i.val + 3 < cfg1.N) (r : Fin 1024) (f : Fin 32) :
    acc1 (F := Ideal) V c (4 * i.val + 3) h3 (ix2 r f)
      = Cert.Spec.inv (V c main_arg1) (V c main_v1) (ix2 (⟨1024 * i.val + r.val, by omega⟩ : Fin 8192) f) := by
  have h2 : 4 * i.val + 2 < cfg1.N := by omega
  have h1 : 4 * i.val + 1 < cfg1.N := by omega
  have h0 : 4 * i.val + 0 < cfg1.N := by omega
  have e3 : acc1 (F := Ideal) V c (4 * i.val + 3) h3
      = k1_pay2 (iblk1 V c 0 ⟨4 * i.val + 3, h3⟩) (iblk1 V c 1 ⟨4 * i.val + 3, h3⟩) (acc1 V c (4 * i.val + 2) h2) :=
    acc1_next V c ⟨4 * i.val + 3, h3⟩ (by show ¬(4 * i.val + 3) % 4 = 0; omega)
  have e2 : acc1 (F := Ideal) V c (4 * i.val + 2) h2
      = k1_pay2 (iblk1 V c 0 ⟨4 * i.val + 2, h2⟩) (iblk1 V c 1 ⟨4 * i.val + 2, h2⟩) (acc1 V c (4 * i.val + 1) h1) :=
    acc1_next V c ⟨4 * i.val + 2, h2⟩ (by show ¬(4 * i.val + 2) % 4 = 0; omega)
  have e1 : acc1 (F := Ideal) V c (4 * i.val + 1) h1
      = k1_pay2 (iblk1 V c 0 ⟨4 * i.val + 1, h1⟩) (iblk1 V c 1 ⟨4 * i.val + 1, h1⟩) (acc1 V c (4 * i.val + 0) h0) :=
    acc1_next V c ⟨4 * i.val + 1, h1⟩ (by show ¬(4 * i.val + 1) % 4 = 0; omega)
  have e0 : acc1 (F := Ideal) V c (4 * i.val + 0) h0
      = k1_pay2 (iblk1 V c 0 ⟨4 * i.val + 0, h0⟩) (iblk1 V c 1 ⟨4 * i.val + 0, h0⟩) (k1_pay1 (F := Ideal)) :=
    acc1_first V c ⟨4 * i.val + 0, h0⟩ (by show (4 * i.val + 0) % 4 = 0; omega)
  rw [e3, v1_step_apply V c ⟨4 * i.val + 3, h3⟩ i 3 (by show (4 * i.val + 3) / 4 = _; omega) (by show (4 * i.val + 3) % 4 = 3; omega),
    e2, v1_step_apply V c ⟨4 * i.val + 2, h2⟩ i 2 (by show (4 * i.val + 2) / 4 = _; omega) (by show (4 * i.val + 2) % 4 = 2; omega),
    e1, v1_step_apply V c ⟨4 * i.val + 1, h1⟩ i 1 (by show (4 * i.val + 1) / 4 = _; omega) (by show (4 * i.val + 1) % 4 = 1; omega),
    e0, v1_step_apply V c ⟨4 * i.val + 0, h0⟩ i 0 (by show (4 * i.val + 0) / 4 = _; omega) (by show (4 * i.val + 0) % 4 = 0; omega),
    v1_pay1_apply]
  rw [Cert.Spec.inv_apply, Cert.Spec.sum_blocks]
  exact Cert.Spec.fold4 (v1_part (V c main_arg1) (V c main_v1) i r f)

/-! ## From the blocks to the array -/

/-- What a last point `t = 4 i + 3` writes back is block `i` of `inv U s`. -/
theorem v1_flushed_eq (c : Dev nD) (t : Fin cfg1.N) (hf : (cfg1.win 2).flush t = true) :
    (dat1 (F := Ideal) V c).flushed 2 t
      = ((cfg1.win 2).blk t).view.read (Elt Ideal) (Cert.Spec.inv (V c main_arg1) (V c main_v1)) := by
  have hN : t.val < 32 := lt_of_lt_of_eq t.isLt (show cfg1.N = 32 from N_1)
  have h3 : t.val % 4 = 3 := (flush1_2 t).mp hf
  obtain ⟨-, -, -, -, e4, e5⟩ := v1_idx_facts t
  show (cfg1.win 2).cut (grid1.coords t) ((dat1 V c).after 2 t) = _
  rw [after1_2]
  funext j
  obtain ⟨r, f, rfl⟩ : ∃ (r : Fin 1024) (f : Fin 32), j = ix2 r f := ⟨j 0, j 1, eq_ix2 j⟩
  rw [View.read_apply]
  show acc1 V c t.val t.isLt (ix2 r f)
    = Cert.Spec.inv (V c main_arg1) (V c main_v1) (((cfg1.win 2).blk t).view.emb (ix2 r f))
  have he : ((cfg1.win 2).blk t).view.emb (ix2 r f)
      = (ix2 (⟨1024 * (t.val / 4) + r.val, by omega⟩ : Fin 8192) f : Cert.Spec.SN.Idx) := by
    funext a
    apply Fin.ext
    match a with
    | ⟨0, _⟩ => show win1_2.index t (0 : Fin 2) * 1024 + 1 * r.val = 1024 * (t.val / 4) + r.val; rw [e4]; omega
    | ⟨1, _⟩ => show win1_2.index t (1 : Fin 2) * 32 + 1 * f.val = f.val; rw [e5]; omega
  rw [he]
  have ht : t.val = 4 * (t.val / 4) + 3 := by omega
  have hlt : 4 * (t.val / 4) + 3 < cfg1.N := ht ▸ t.isLt
  exact (congrFun (v1_acc_congr V c t.val (4 * (t.val / 4) + 3) ht t.isLt hlt) (ix2 r f)).trans
    (v1_acc_last V c ⟨t.val / 4, by omega⟩ hlt r f)

/-- An index of the output lies in point `t`'s block iff its row is in rows `1024 (t / 4) … 1024 (t / 4) + 1023`. -/
theorem v1_mem_blk (t : Fin cfg1.N) (i : S8192x32.Idx) :
    i ∈ ((cfg1.win 2).blk t).view.set ↔ ∀ a : Fin 2, win1_2.index t a * S1024x32.size a ≤ (i a).val ∧ (i a).val < win1_2.index t a * S1024x32.size a + S1024x32.size a := by
  show i ∈ ((View.whole main_v2).slice (win1_2.rect t)).set ↔ _
  rw [View.set_slice_whole, Rect.mem_set_unit]
  exact Iff.rfl

/-- Every index of the output lies in the block some last point writes back: row `ρ` in that of `t = 4 (ρ / 1024) + 3`. -/
theorem v1_cover (i : S8192x32.Idx) : ∃ t : Fin cfg1.N, (cfg1.win 2).flush t = true ∧ i ∈ ((cfg1.win 2).blk t).view.set := by
  have hi0 : (i 0).val < 8192 := (i 0).isLt
  have hi1 : (i 1).val < 32 := (i 1).isLt
  have hN : grid1.N = 32 := N_1
  obtain ⟨t, ht⟩ : ∃ t : Fin cfg1.N, t.val = 4 * ((i 0).val / 1024) + 3 :=
    ⟨⟨4 * ((i 0).val / 1024) + 3, by show _ < grid1.N; omega⟩, rfl⟩
  obtain ⟨-, -, -, -, e4, e5⟩ := v1_idx_facts t
  refine ⟨t, (flush1_2 t).mpr (by omega), ?_⟩
  rw [v1_mem_blk]
  intro a
  match a with
  | ⟨0, _⟩ =>
    show win1_2.index t (0 : Fin 2) * 1024 ≤ (i 0).val ∧ (i 0).val < win1_2.index t (0 : Fin 2) * 1024 + 1024
    rw [e4]; omega
  | ⟨1, _⟩ =>
    show win1_2.index t (1 : Fin 2) * 32 ≤ (i 1).val ∧ (i 1).val < win1_2.index t (1 : Fin 2) * 32 + 32
    rw [e5]; omega

/-- The output array after the region: the inverse transform of the scaled spectrum. -/
theorem arr1_eq (V : (c : Dev nD) → (b : Ref sig .tc) → Buf (Elt Ideal) ((c : Thread nD τ).loc b)) (c : Dev nD) :
    (dat1 (F := Ideal) V c).arrAt 2 cfg1.N = Cert.Spec.inv (V c main_arg1) (V c main_v1) :=
  (dat1 (F := Ideal) V c).arrAt_eq_of_cover 2 (Cert.Spec.inv (V c main_arg1) (V c main_v1))
    (fun t hf => v1_flushed_eq V c t hf) v1_cover

end Cert.KernelIdeal.Hand

end
-- ==== Proof.KValue.lean ====
/-
  The idealized kernel's result as one function of its three arguments: the second region's output is the inverse
  transform of what it reads; of that, the eigenvector matrix is the argument as launched and the scaled spectrum is the
  first region's output, itself the forward transform of the arguments scaled by the filter table the host line
  transposed.
-/
import proofs.«173338_j37280316129403_1_alg».proof.Proof.Run
import proofs.«173338_j37280316129403_1_alg».proof.Proof.Value0
import proofs.«173338_j37280316129403_1_alg».proof.Proof.Value1
import proofs.«173338_j37280316129403_1_alg».proof.Proof.Spec
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The host line leaves the filter table transposed. -/
theorem W1_main_v0 (c : Dev nD) :
    (W1 (F := Ideal) m ρ c (Proc.devRef .tc main_v0) : S8192x32.Idx → EReal)
      = Cert.Spec.tr (m ((c : Thread nD τ).loc main_arg2)) := by
  have e : (W1 (F := Ideal) m ρ c (Proc.devRef .tc main_v0) : S8192x32.Idx → EReal)
      = transpose S8192x32 [1, 0] (m ((c : Thread nD τ).loc main_arg2)) Facts₀.transposes_S32x8192_S8192x32_1_0 := by
    dsimp only [W1, W0, hostOps0]; after_results
  rw [e]
  funext i
  exact transpose_apply [1, 0] (m ((c : Thread nD τ).loc main_arg2)) Facts₀.transposes_S32x8192_S8192x32_1_0 i
    (ValueIdx.ix2 (i 1) (i 0)) (fun b => match b with
      | ⟨0, _⟩ => rfl
      | ⟨1, _⟩ => rfl)

/-- The result buffer after the run is the whole convolution of the arguments as launched. -/
theorem result_eq (c : Dev nD) :
    (W3 (F := Ideal) m ρ c (Proc.devRef .tc main_v2) : S8192x32.Idx → EReal)
      = Cert.Spec.G (m ((c : Thread nD τ).loc main_arg0)) (m ((c : Thread nD τ).loc main_arg1)) (m ((c : Thread nD τ).loc main_arg2)) := by
  rw [W3_main_v2, arr1_eq (V2 m ρ) c]
  unfold Cert.Spec.G
  rw [show V2 m ρ c main_arg1 = m ((c : Thread nD τ).loc main_arg1) from W2_main_arg1 m ρ c,
    show V2 m ρ c main_v1 = (dat0 (V1 m ρ) c).arrAt 3 cfg0.N from W2_main_v1 m ρ c,
    arr0_eq (V1 m ρ) c,
    show V1 m ρ c main_arg1 = m ((c : Thread nD τ).loc main_arg1) from W1_main_arg1 m ρ c,
    show V1 m ρ c main_arg0 = m ((c : Thread nD τ).loc main_arg0) from W1_main_arg0 m ρ c,
    show (V1 m ρ c main_v0 : S8192x32.Idx → EReal) = _ from W1_main_v0 m ρ c]

end Cert.KernelIdeal.Hand

end
-- ==== Proof.Ref.lean ====
/-
  The reference is the spectral graph convolution. Read index by index over the extended reals, its five operations
  (transpose `U`, contract with `x`, transpose the filter table, multiply elementwise, contract with `U`) compose to
  `G x U filters`: the element at `(r, f)` is `∑ₖ U[r, k] · ((∑ⱼ U[j, k] · x[j, f]) · filters[f, k])`.
-/
import proofs.«173338_j37280316129403_1_alg».proof.Proof.Gen.ReferenceIdeal.Run
import proofs.«173338_j37280316129403_1_alg».proof.Proof.Gen.ReferenceIdeal.Read
import proofs.«173338_j37280316129403_1_alg».proof.Proof.Spec

noncomputable section

namespace Cert.ReferenceIdeal.RefValue

open Cert.ReferenceIdeal Cert.ReferenceIdeal.Read Idealize.ShloMosaic Idealize.ShloMosaic.ValueIdx

/-- The left operand of the inverse transform is read at `(r, k)`. -/
theorem lidx_v4_ix2 (r : Fin 8192) (f : Fin 32) (k : Fin 8192) : lidx_main_v4 (ix2 r f) k = ix2 r k :=
  funext fun a => Fin.ext (by match a with | ⟨0, _⟩ => rfl | ⟨1, _⟩ => rfl)

/-- The right operand of the inverse transform is read at `(k, f)`. -/
theorem ridx_v4_ix2 (r : Fin 8192) (f : Fin 32) (k : Fin 8192) : ridx_main_v4 (ix2 r f) k = ix2 k f :=
  funext fun a => Fin.ext (by match a with | ⟨0, _⟩ => rfl | ⟨1, _⟩ => rfl)

/-- The left operand of the forward transform (the transposed `U`) is read at `(k, j)`. -/
theorem lidx_v1_ix2 (k : Fin 8192) (f : Fin 32) (j : Fin 8192) : lidx_main_v1 (ix2 k f) j = ix2 k j :=
  funext fun a => Fin.ext (by match a with | ⟨0, _⟩ => rfl | ⟨1, _⟩ => rfl)

/-- The right operand of the forward transform is read at `(j, f)`. -/
theorem ridx_v1_ix2 (k : Fin 8192) (f : Fin 32) (j : Fin 8192) : ridx_main_v1 (ix2 k f) j = ix2 j f :=
  funext fun a => Fin.ext (by match a with | ⟨0, _⟩ => rfl | ⟨1, _⟩ => rfl)

/-- The transposed `U` at `(k, j)` is `U` at `(j, k)`. -/
theorem idx_v0_ix2 (k j : Fin 8192) : idx_main_v0 (ix2 k j) = ix2 j k :=
  funext fun a => Fin.ext (by match a with | ⟨0, _⟩ => rfl | ⟨1, _⟩ => rfl)

/-- The transposed filter table at `(k, f)` is the table at `(f, k)`. -/
theorem idx_v2_ix2 (k : Fin 8192) (f : Fin 32) : idx_main_v2 (ix2 k f) = ix2 f k :=
  funext fun a => Fin.ext (by match a with | ⟨0, _⟩ => rfl | ⟨1, _⟩ => rfl)

/-- The filtered spectrum the reference computes, at `(k, f)`. -/
theorem v3_ix2 (x0 : (⟨S8192x32, .f32⟩ : BufTy).Contents (Elt Ideal))
    (x1 : (⟨S8192x8192, .f32⟩ : BufTy).Contents (Elt Ideal))
    (x2 : (⟨S32x8192, .f32⟩ : BufTy).Contents (Elt Ideal)) (k : Fin 8192) (f : Fin 32) :
    val_main_v3 (F := Ideal) x0 x1 x2 (ix2 k f) = Cert.Spec.scaled x1 x0 (Cert.Spec.tr x2) (ix2 k f) := by
  rw [val_main_v3_apply, val_main_v1_apply, val_main_v2_apply, idx_v2_ix2, Cert.Spec.scaled_apply,
    Cert.Spec.tr_apply, Ideal.mulf_def]
  congr 1
  unfold Cert.Spec.fwd
  refine Finset.sum_congr rfl fun j _ => ?_
  rw [val_main_v0_apply, lidx_v1_ix2, ridx_v1_ix2, idx_v0_ix2]

/-- The reference's result is the convolution `G` of its three arguments. -/
theorem ref_eq (x0 : (⟨S8192x32, .f32⟩ : BufTy).Contents (Elt Ideal))
    (x1 : (⟨S8192x8192, .f32⟩ : BufTy).Contents (Elt Ideal))
    (x2 : (⟨S32x8192, .f32⟩ : BufTy).Contents (Elt Ideal)) :
    Cert.ReferenceIdeal.Read.val_main_v4 (F := Ideal) x0 x1 x2 = Cert.Spec.G x0 x1 x2 := by
  funext i
  obtain ⟨r, f, rfl⟩ : ∃ (r : Fin 8192) (f : Fin 32), i = ix2 r f := ⟨i 0, i 1, eq_ix2 i⟩
  rw [val_main_v4_apply]
  unfold Cert.Spec.G
  rw [Cert.Spec.inv_apply]
  refine Finset.sum_congr rfl fun k _ => ?_
  rw [lidx_v4_ix2, ridx_v4_ix2, v3_ix2]

end Cert.ReferenceIdeal.RefValue

end
-- ==== Proof.lean ====
/-
  The certificate of the spectral graph convolution `out = U · ((Uᵀ · x) ∘ filtersᵀ)`: a Pallas kernel of two tiled
  matrix products (each accumulating, in a scratch, over four blocks of the shared 8192-long contraction; the first scales
  its sum by the transposed filter table) against the plain jnp expression.
  Frames: each kernel program runs as a host transposition followed by two pipelined regions; a region's scratch
  accumulator is carried from grid point to grid point by the region's invariant, and the regions are chained through the
  contents they leave in the core's buffers. The reference is five host operations.
  Equivalence over the extended reals: the accumulator after the last block is the left fold from zero of the four block
  sums, which is the sum over all 8192 indices (addition is commutative and associative; no finiteness is needed), so both
  programs compute `∑ₖ U[r,k] · ((∑ⱼ U[j,k] · x[j,f]) · filters[f,k])` at every `(r, f)`. The ideal pass rewrote nothing, so the
  idealization is the kernel's own text.
-/
import proofs.«173338_j37280316129403_1_alg».proof.Defs
import proofs.«173338_j37280316129403_1_alg».proof.Proof.Gen.Kernel
import proofs.«173338_j37280316129403_1_alg».proof.Proof.Gen.KernelIdeal
import proofs.«173338_j37280316129403_1_alg».proof.Proof.Gen.ReferenceIdeal
import proofs.«173338_j37280316129403_1_alg».proof.Proof.Gen.Pre_finite_inputs
import proofs.«173338_j37280316129403_1_alg».proof.Proof.Gen.ReferenceIdeal.Run
import proofs.«173338_j37280316129403_1_alg».proof.Proof.Gen.ReferenceIdeal.Read
import proofs.«173338_j37280316129403_1_alg».proof.Proof.BRun
import proofs.«173338_j37280316129403_1_alg».proof.Proof.Run
import proofs.«173338_j37280316129403_1_alg».proof.Proof.KValue
import proofs.«173338_j37280316129403_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the whole convolution `Spec.G` of the arguments, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.result_eq m ρ c), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v4_eq, Cert.ReferenceIdeal.RefValue.ref_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
